-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel

variable [Facts]

def fn {F : FTy → Type} [FloatOps F] (main_arg0 : FVec F S4096x16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  main_v3
-- ==== Kernel.lean ====
abbrev S4096x16384 : Shape := ⟨2, ![4096, 16384]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩
abbrev S_ : Shape := ⟨0, ![]⟩

abbrev nBuf : Space → Nat
  | .hbm => 20
  | .vmem => 16
  | .smem => 0
  | _ => 0

abbrev bufTy : (tb : Table) → Fin (tcTables nBuf tb) → BufTy
  | .hbm, ⟨0, _⟩ => ⟨S4096x16384, .f32⟩
  | .hbm, ⟨1, _⟩ => ⟨S4096x1, .f32⟩
  | .hbm, ⟨2, _⟩ => ⟨S4096x1, .f32⟩
  | .hbm, ⟨3, _⟩ => ⟨S_, .f32⟩
  | .hbm, ⟨4, _⟩ => ⟨S4096x1, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x16384, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x2048, .f32⟩
  | .local _ .vmem, ⟨9, _⟩ => ⟨S512x2048, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x2048, .f32⟩
  | .local _ .vmem, ⟨15, _⟩ => ⟨S512x2048, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  bcast_S_S4096x1 : S_.BroadcastsInDim S4096x1 (![] : Fin 0 → Fin S4096x1.rank)
  broadcasts_S512x1_S512x2048 : S512x1.Broadcasts S512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x16384.size a
  hwx0_0 : ∀ i : grid0.Coords, EltTy.bits .f32 = 32 ∨ (Rect.block (s := S4096x16384) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x16384.size a
  hwx1_0 : ∀ i : grid1.Coords, EltTy.bits .f32 = 32 ∨ (Rect.block (s := S4096x16384) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S4096x1.size a
  hwx1_1 : ∀ i : grid1.Coords, EltTy.bits .f32 = 32 ∨ (Rect.block (s := S4096x1) S512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S4096x16384.size a
  hwx1_3 : ∀ i : grid1.Coords, EltTy.bits .f32 = 32 ∨ (Rect.block (s := S4096x16384) S512x2048.size (cc1_transform_3 i) (hinb1_3 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x16384 : Shape := ⟨2, ![4096, 16384]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S_, .f32⟩
  | .hbm, ⟨2, _⟩ => ⟨S4096, .f32⟩
  | .hbm, ⟨3, _⟩ => ⟨S4096x1, .f32⟩
  | .hbm, ⟨4, _⟩ => ⟨S_, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x16384, .f32⟩
  | .hbm, ⟨24, _⟩ => ⟨S4096x16384, .f32⟩
  | .hbm, ⟨25, _⟩ => ⟨S4096x16384, .f32⟩
  | .hbm, ⟨26, _⟩ => ⟨S4096x16384, .f32⟩
  | .hbm, ⟨27, _⟩ => ⟨S4096x16384, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096x16384, .f32⟩
  | .hbm, ⟨32, _⟩ => ⟨S4096x16384, .f32⟩
  | .hbm, ⟨33, _⟩ => ⟨S_, .f32⟩
  | .hbm, ⟨34, _⟩ => ⟨S4096x16384, .f32⟩
  | .hbm, ⟨35, _⟩ => ⟨S4096x16384, .f32⟩
  | .hbm, ⟨36, _⟩ => ⟨S4096x16384, .f32⟩
  | .hbm, ⟨37, _⟩ => ⟨S4096x16384, .f32⟩
  | .hbm, ⟨38, _⟩ => ⟨S4096x16384, .f32⟩
  | .hbm, ⟨39, _⟩ => ⟨S4096x16384, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_cst_4 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_5 : Ref sig .tc := ⟨.hbm, 28, rfl⟩
abbrev main_cst_6 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S4096x16384_S4096_d1 : S4096x16384.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x16384_0_1 : S4096x1.BroadcastsInDim S4096x16384 (![0, 1] : Fin 2 → Fin S4096x16384.rank)
  bcast_S_S4096x16384 : S_.BroadcastsInDim S4096x16384 (![] : Fin 0 → Fin S4096x16384.rank)

variable [Facts₀]

class Facts : Prop extends Facts₀ where

variable [Facts]
-- ==== Proof.Kernel.Reg0.lean ====
/-
  The first kernel region (the row minimum and maximum) at entry contents `V`: what its two scratch accumulators
  hold after each grid point, the proof data of its pipeline, and the body's triple at every point.
  Point `t` of the 8 x 8 grid is row block `t / 8`, column block `t % 8`. At a column block 0 the accumulators restart
  from +inf and -inf; at every point they take the minimum (maximum) with the block's row minima (maxima); at column
  block 7 they are copied into the two output windows, which are idle at every other point.
-/
import proofs.«153488_j16260746183110_1_alg».proof.Proof.Gen.Kernel.Launch
import proofs.«153488_j16260746183110_1_alg».proof.Proof.Gen.Kernel.Skeleton
import proofs.«153488_j16260746183110_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block of point `t`, at its literal type. -/
abbrev xblk0 (c : Dev nD) (t : Fin cfg0.N) : Vec F S512x2048 .f32 := iblk0 V c 0 t

/-! ## The accumulators after each point -/

/-- What the two scratch accumulators hold after the body at position `n`: the running minimum and maximum of the
    row block's column blocks up to this one, restarted at a column block 0. -/
def scAt0 (c : Dev nD) : (n : ℕ) → n < cfg0.N → Vec F S512x1 .f32 × Vec F S512x1 .f32
  | 0, hn => (k0_pay3 (xblk0 V c ⟨0, hn⟩) (k0_pay1 (F := F)), k0_pay4 (xblk0 V c ⟨0, hn⟩) (k0_pay2 (F := F)))
  | n + 1, hn =>
    if (n + 1) % 8 = 0 then
      (k0_pay3 (xblk0 V c ⟨n + 1, hn⟩) (k0_pay1 (F := F)), k0_pay4 (xblk0 V c ⟨n + 1, hn⟩) (k0_pay2 (F := F)))
    else
      (k0_pay3 (xblk0 V c ⟨n + 1, hn⟩) (scAt0 c n (Nat.lt_of_succ_lt hn)).1, k0_pay4 (xblk0 V c ⟨n + 1, hn⟩) (scAt0 c n (Nat.lt_of_succ_lt hn)).2)

/-- At a column block 0 the accumulators restart. -/
theorem scAt0_reset (c : Dev nD) (t : Fin cfg0.N) (h : t.val % 8 = 0) :
    scAt0 V c t.val t.isLt = (k0_pay3 (xblk0 V c t) (k0_pay1 (F := F)), k0_pay4 (xblk0 V c t) (k0_pay2 (F := F))) := by
  obtain ⟨n, hn⟩ := t
  cases n with
  | zero => rfl
  | succ n => exact if_pos h

/-- At any other column block they go on from what the point before left. -/
theorem scAt0_step (c : Dev nD) (t : Fin cfg0.N) (h : ¬ t.val % 8 = 0) :
    scAt0 V c t.val t.isLt
      = (k0_pay3 (xblk0 V c t) (scAt0 V c (t.val - 1) (Nat.lt_of_le_of_lt (Nat.sub_le _ _) t.isLt)).1,
         k0_pay4 (xblk0 V c t) (scAt0 V c (t.val - 1) (Nat.lt_of_le_of_lt (Nat.sub_le _ _) t.isLt)).2) := by
  obtain ⟨n, hn⟩ := t
  cases n with
  | zero => exact absurd (Nat.zero_mod _) h
  | succ n => exact if_neg h

/-! ## The region invariant -/

/-- The two scratch accumulators as memrefs. -/
abbrev scM0_0 : Memref sig .tc .vmem S512x1 .f32 := Memref.whole cc0_scratch0
abbrev scM0_1 : Memref sig .tc .vmem S512x1 .f32 := Memref.whole cc0_scratch1

/-- The scoped buffers that are neither a staging buffer of this pipeline nor one of its accumulators (the second
    region's staging buffers), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class's invariant with the accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

/-- The region invariant before position `n`: before the first point the class's (every scratch at anything);
    afterwards the accumulators at what the point before left, the other scoped buffers at anything, the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((scAt0 V c n hn).1) ∗ owns (c : Thread nD τ) scM0_1 fullShare ((scAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((scAt0 V c n hn).1) ∗ owns (c : Thread nD τ) scM0_1 fullShare ((scAt0 V c n hn).2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((scAt0 V c (n - 1) (by omega)).1) ∗ owns (c : Thread nD τ) scM0_1 fullShare ((scAt0 V c (n - 1) (by omega)).2) ∗ rest0 (F := F) c) ∗ (∃ r, prngReg c r)) := by
  cases n with
  | zero => exact absurd rfl hz
  | succ n => rfl

/-! ## The pipeline's proof data -/

/-- The proof data of pipeline 0 on core `c`: the arrays as the region finds them; after the body at point `t` the
    input's buffer at its block, the two outputs' at the accumulators' contents (what the body copies into them at a
    column block 7; at the other points the windows are idle and the value is not consulted); the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (scAt0 V c t.val t.isLt).1
    | ⟨2, _⟩ => (scAt0 V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (scAt0 V c t.val t.isLt).1 := by dsimp only [dat0]
theorem after0_2 (c : Dev nD) (t : Fin cfg0.N) : (dat0 V c).after 2 t = (scAt0 V c t.val t.isLt).2 := by dsimp only [dat0]

/-! ## The body's branch conditions, and where the output windows are idle -/

/-- The first branch (restart the accumulators) is taken at a column block 0, -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- the second (copy the accumulators out) at a column block 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The input window is never idle; the two output windows are idle, and not written back, exactly where the second
    branch is not taken. -/
theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The body's run, case by case -/

theorem hz2 : (![0, 0] : Fin 2 → Nat) = fun _ => 0 := by funext a; fin_cases a <;> rfl

/-- One store through the whole buffer covers it. -/
theorem cover_one (inb : ∀ a, (![0, 0] : Fin 2 → Nat) a + (S512x1).size a ≤ (S512x1).size a)
    (p : S512x1.Idx → Elt F .f32) (L : List (View.Piece (Elt F) S512x1 .f32)) (y : S512x1.Idx) :
    ∃ pc ∈ ((⟨Rect.unit ![0, 0] S512x1.size inb, p⟩ : View.Piece (Elt F) S512x1 .f32) :: L), y ∈ pc.1.set :=
  ⟨_, List.mem_cons_self, View.mem_set_unit_zero hz2 inb y⟩

set_option maxHeartbeats 1000000 in
/-- At a column block strictly between the first and the last: each accumulator takes its minimum (maximum) with the
    block's row minima (maxima); the output windows are handed back untouched. -/
theorem run0_B (c : Dev nD) (E : Set ℕ) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole)
    (hc0 : ¬cond0_0 i) (hc1 : ¬cond0_1 i)
    (x0 : Vec F S512x2048 .f32) (xi1 xi2 s5 s6 : Vec F S512x1 .f32) (K : PUnit → sProp 𝕄) :
    iprop(owns (c : Thread nD τ) arg2 fullShare x0 ∗ owns (c : Thread nD τ) arg3 fullShare xi1 ∗ owns (c : Thread nD τ) arg4 fullShare xi2
        ∗ owns (c : Thread nD τ) arg5 fullShare s5 ∗ owns (c : Thread nD τ) arg6 fullShare s6
        ∗ (iprop(owns (c : Thread nD τ) arg2 fullShare x0 ∗ owns (c : Thread nD τ) arg3 fullShare xi1 ∗ owns (c : Thread nD τ) arg4 fullShare xi2
            ∗ owns (c : Thread nD τ) arg5 fullShare (k0_pay3 x0 s5) ∗ owns (c : Thread nD τ) arg6 fullShare (k0_pay4 x0 s6)) -∗ K ⟨⟩))
      ⊢ wp frame (wpE (defs₀ (F := F)) Variants.none c none) E (cc0__minmax_kernel i arg2 harg2 arg3 harg3 arg4 harg4 arg5 harg5 arg6 harg6) K := by
  simp only [cc0__minmax_kernel_eq_skeleton]; unfold cc0__minmax_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  subst hf0 hf1 hf2 hf5 hf6
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H5]
  · iexists _; isplitr
    swap; · iexact H5
    ipureintro
    refine (View.read_writes_eq_canon _ _ _ (cover_one _ _ _)).trans ?_
    rw [View.canon_unit_zero hz2]
    simp only [View.readAt_eq_ld, View.ld_unit_zero (S := S512x2048) hz2, View.ld_unit_zero (S := S512x1) hz2]
  · iexists _; isplitr
    swap; · iexact H6
    ipureintro
    refine (View.read_writes_eq_canon _ _ _ (cover_one _ _ _)).trans ?_
    rw [View.canon_unit_zero hz2]
    simp only [View.readAt_eq_ld, View.ld_unit_zero (S := S512x2048) hz2, View.ld_unit_zero (S := S512x1) hz2]

set_option maxHeartbeats 1000000 in
/-- At a column block 0 (the row block's first): the accumulators, whatever they held, restart from +inf and -inf and
    take the block's row minima and maxima; the output windows are handed back untouched. -/
theorem run0_A (c : Dev nD) (E : Set ℕ) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole)
    (hc0 : cond0_0 i) (hc1 : ¬cond0_1 i)
    (x0 : Vec F S512x2048 .f32) (xi1 xi2 : Vec F S512x1 .f32) (K : PUnit → sProp 𝕄) :
    iprop(owns (c : Thread nD τ) arg2 fullShare x0 ∗ owns (c : Thread nD τ) arg3 fullShare xi1 ∗ owns (c : Thread nD τ) arg4 fullShare xi2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare xi1 ∗ owns (c : Thread nD τ) arg4 fullShare xi2
            ∗ owns (c : Thread nD τ) arg5 fullShare (k0_pay3 x0 (k0_pay1 (F := F))) ∗ owns (c : Thread nD τ) arg6 fullShare (k0_pay4 x0 (k0_pay2 (F := F)))) -∗ K ⟨⟩))
      ⊢ wp frame (wpE (defs₀ (F := F)) Variants.none c none) E (cc0__minmax_kernel i arg2 harg2 arg3 harg3 arg4 harg4 arg5 harg5 arg6 harg6) K := by
  simp only [cc0__minmax_kernel_eq_skeleton]; unfold cc0__minmax_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  subst hf0 hf1 hf2
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H5]
  · iexists _; isplitr
    swap; · iexact H5
    ipureintro
    refine (View.read_writes_eq_canon _ _ _ (cover_one _ _ _)).trans ?_
    sl_unfold_words
    rw [View.canon_cons_unit_zero hz2]
    simp only [View.readAt_eq_ld, View.ld_unit_zero (S := S512x2048) hz2, View.ld_unit_zero (S := S512x1) hz2, View.readCov_unit_zero (S := S512x1) _ hz2]
  · iexists _; isplitr
    swap; · iexact H6
    ipureintro
    refine (View.read_writes_eq_canon _ _ _ (cover_one _ _ _)).trans ?_
    sl_unfold_words
    rw [View.canon_cons_unit_zero hz2]
    simp only [View.readAt_eq_ld, View.ld_unit_zero (S := S512x2048) hz2, View.ld_unit_zero (S := S512x1) hz2, View.readCov_unit_zero (S := S512x1) _ hz2]

set_option maxHeartbeats 1000000 in
/-- At a column block 7 (the row block's last): the accumulators take the block's row minima and maxima, and the two
    output windows, whatever they held, take the accumulators' new contents. -/
theorem run0_C (c : Dev nD) (E : Set ℕ) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole)
    (hc0 : ¬cond0_0 i) (hc1 : cond0_1 i)
    (x0 : Vec F S512x2048 .f32) (s5 s6 : Vec F S512x1 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ owns (c : Thread nD τ) arg5 fullShare s5 ∗ owns (c : Thread nD τ) arg6 fullShare s6
        ∗ (iprop(owns (c : Thread nD τ) arg2 fullShare x0 ∗ owns (c : Thread nD τ) arg3 fullShare (k0_pay3 x0 s5) ∗ owns (c : Thread nD τ) arg4 fullShare (k0_pay4 x0 s6)
            ∗ owns (c : Thread nD τ) arg5 fullShare (k0_pay3 x0 s5) ∗ owns (c : Thread nD τ) arg6 fullShare (k0_pay4 x0 s6)) -∗ K ⟨⟩))
      ⊢ wp frame (wpE (defs₀ (F := F)) Variants.none c none) E (cc0__minmax_kernel i arg2 harg2 arg3 harg3 arg4 harg4 arg5 harg5 arg6 harg6) K := by
  simp only [cc0__minmax_kernel_eq_skeleton]; unfold cc0__minmax_kernel_skel
  unfold owns
  iintro ⟨⟨%f0, %hf0, H0⟩, ⟨%d1, %f1, -, H1⟩, ⟨%d2, %f2, -, H2⟩, ⟨%f5, %hf5, H5⟩, ⟨%f6, %hf6, H6⟩, Hk⟩
  subst hf0 hf5 hf6
  sl_exec (disch := first | exact hc0 | exact hc1)
  sl_step
  iapply Hk
  isplitl [H0]; · iexists f0; isplitr; · ipureintro; rfl
                  iexact H0
  isplitl [H1]
  · iexists _; isplitr
    swap; · iexact H1
    ipureintro
    refine (View.read_writes_eq_canon _ _ _ (cover_one _ _ _)).trans ?_
    sl_unfold_words
    rw [View.canon_unit_zero hz2]
    simp only [View.readAt_eq_ld, View.ld_unit_zero (S := S512x2048) hz2, View.ld_unit_zero (S := S512x1) hz2, View.readCov_unit_zero (S := S512x1) _ hz2]
  isplitl [H2]
  · iexists _; isplitr
    swap; · iexact H2
    ipureintro
    refine (View.read_writes_eq_canon _ _ _ (cover_one _ _ _)).trans ?_
    sl_unfold_words
    rw [View.canon_unit_zero hz2]
    simp only [View.readAt_eq_ld, View.ld_unit_zero (S := S512x2048) hz2, View.ld_unit_zero (S := S512x1) hz2, View.readCov_unit_zero (S := S512x1) _ hz2]
  isplitl [H5]
  · iexists _; isplitr
    swap; · iexact H5
    ipureintro
    refine (View.read_writes_eq_canon _ _ _ (cover_one _ _ _)).trans ?_
    rw [View.canon_unit_zero hz2]
    simp only [View.readAt_eq_ld, View.ld_unit_zero (S := S512x2048) hz2, View.ld_unit_zero (S := S512x1) hz2]
  · iexists _; isplitr
    swap; · iexact H6
    ipureintro
    refine (View.read_writes_eq_canon _ _ _ (cover_one _ _ _)).trans ?_
    rw [View.canon_unit_zero hz2]
    simp only [View.readAt_eq_ld, View.ld_unit_zero (S := S512x2048) hz2, View.ld_unit_zero (S := S512x1) hz2]

/-! ## The body obligation, at a generic point -/

/-- Each window's current staging memref at point `t`, as the pipeline passes it, and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)

/-- The input's current staging buffer holds its block at every point (it is fetched at every point). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-- Before any point the invariant gives the accumulators at SOME contents (all a restart needs). -/
theorem PhiS_any (c : Dev nD) (t : Fin cfg0.N) :
    (dat0 V c).Φ t.castSucc ⊢ iprop(iprop((∃ d, owns (c : Thread nD τ) scM0_0 fullShare d) ∗ (∃ d, owns (c : Thread nD τ) scM0_1 fullShare d) ∗ rest0 (F := F) c) ∗ (∃ r, prngReg c r)) := by
  rw [PhiS_castSucc V c t]
  by_cases hz : t.val = 0
  · rw [PhiS_zero V c _ _ hz, PhiA0_eq]
  · rw [PhiS_pos V c _ _ hz]
    iintro ⟨⟨HS0, HS1, Hr⟩, Hg⟩
    isplitl [HS0 HS1 Hr]
    · isplitl [HS0]; · iexists _; iexact HS0
      isplitl [HS1]; · iexists _; iexact HS1
      iexact Hr
    iexact Hg

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

set_option maxHeartbeats 4800000 in
/-- The body at any point. The input's memref holds its block; the closed forms say which case the point is in. At a
    column block 7 the invariant hands over the accumulators at what the point before left and the outputs leave
    holding the new contents; at a column block 0 the accumulators come at anything and restart; elsewhere they go on
    from the point before and the output windows, idle there, are handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
      unfold Dat.leavesExact; rw [liveAt0_0 t], after0_0]
  have hN : t.val < 64 := lt_of_lt_of_eq t.isLt (show cfg0.N = 64 from N_0)
  by_cases h1 : t.val % 8 = 7
  · have hc1 : cond0_1 (grid0.coords t) := (hcond0_1 t).mpr h1
    have h0 : ¬ t.val % 8 = 0 := by omega
    have hc0 : ¬cond0_0 (grid0.coords t) := fun h => h0 ((hcond0_0 t).mp h)
    have hz : t.val ≠ 0 := by omega
    rw [show (dat0 V c).leavesExact 1 t = owns (c : Thread nD τ) (ms0_1 t) fullShare ((dat0 V c).after 1 t) from by
        unfold Dat.leavesExact; rw [liveAt0_1 t hc1], after0_1]
    rw [show (dat0 V c).leavesExact 2 t = owns (c : Thread nD τ) (ms0_2 t) fullShare ((dat0 V c).after 2 t) from by
        unfold Dat.leavesExact; rw [liveAt0_2 t hc1], after0_2]
    rw [scAt0_step V c t h0]; dsimp only
    rw [PhiS_castSucc V c t, PhiS_pos V c _ _ hz]
    iintro ⟨⟨⟨HS0, HS1, Hr⟩, Hg⟩, Ho, ⟨%d0, H0⟩, ⟨%d1, H1⟩, ⟨%d2, H2⟩⟩
    iapply (run0_C c Set.univ (grid0.coords t) _ _ _ _ _ _ _ _ _ _ hc0 hc1 (iblk0 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    iexact H2
  · have hc1 : ¬cond0_1 (grid0.coords t) := fun h => h1 ((hcond0_1 t).mp h)
    rw [Dat.leavesExact_idle (dat0 V c) 1 t (idleAt0_1 t hc1) (noFlush0_1 t hc1)]
    rw [Dat.leavesExact_idle (dat0 V c) 2 t (idleAt0_2 t hc1) (noFlush0_2 t hc1)]
    by_cases h0 : t.val % 8 = 0
    · have hc0 : cond0_0 (grid0.coords t) := (hcond0_0 t).mpr h0
      rw [scAt0_reset V c t h0]; dsimp only
      iintro ⟨HPhi, Ho, ⟨%d0, H0⟩, ⟨%d1, H1⟩, ⟨%d2, H2⟩⟩
      have hany := PhiS_any V c t
      ihave HPhi' := hany $$ HPhi
      icases HPhi' with ⟨⟨HS0, HS1, Hr⟩, Hg⟩
      iapply (run0_A c Set.univ (grid0.coords t) _ _ _ _ _ _ _ _ _ _ hc0 hc1 (iblk0 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexists _; iexact H1
      iexists _; iexact H2
    · have hc0 : ¬cond0_0 (grid0.coords t) := fun h => h0 ((hcond0_0 t).mp h)
      have hz : t.val ≠ 0 := fun e => h0 (by rw [e])
      rw [scAt0_step V c t h0]; dsimp only
      rw [PhiS_castSucc V c t, PhiS_pos V c _ _ hz]
      iintro ⟨⟨⟨HS0, HS1, Hr⟩, Hg⟩, Ho, ⟨%d0, H0⟩, ⟨%d1, H1⟩, ⟨%d2, H2⟩⟩
      iapply (run0_B c Set.univ (grid0.coords t) _ _ _ _ _ _ _ _ _ _ hc0 hc1 (iblk0 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexists _; iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end Cert.Kernel.Hand

end
-- ==== Proof.Kernel.Reg1.lean ====
/-
  The second kernel region (quantise, clamp, dequantise) at entry contents `V`: each grid point reads its block of the
  input and the matching 512 rows of the scale and zero-point columns, and stores one block of the result, a pointwise
  function of the three.
-/
import proofs.«153488_j16260746183110_1_alg».proof.Proof.Gen.Kernel.Launch
import proofs.«153488_j16260746183110_1_alg».proof.Proof.Gen.Kernel.Skeleton
import proofs.«153488_j16260746183110_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body leaves in the output window's buffer -/

/-- The result block from the input block `x0`, the scale rows `x1` and the zero-point rows `x2`. -/
def out1_3 (x0 : Vec F S512x2048 .f32) (x1 : Vec F S512x1 .f32) (x2 : Vec F S512x1 .f32) : Vec F S512x2048 .f32 :=
  k1_pay1 x1 x2 x0

/-! ## The pipeline's proof data -/

/-- The proof data of pipeline 1 on core `c`: the arrays as the region finds them; after the body at point `t` each
    input's buffer at its block and the output's at `out1_3` of the three input blocks; the class's invariant; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## What the body finds in each input window's buffer -/

/-- The input block's buffer holds the block of the point, at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The scale rows' buffer holds the 512 rows of the point's row block at every point: it is refilled only when the
    row block changes, and between two refills the rows asked for are the same ones. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The zero-point rows' buffer likewise. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body's triple -/

/-- The offsets of a whole-block access are all zero. -/
theorem offs_zero_reg1 : (![0, 0] : Fin 2 → Nat) = fun _ => 0 := by funext a; fin_cases a <;> rfl

set_option maxHeartbeats 1000000 in
/-- The body on whole buffers — the three inputs' at read contents `x0`, `x1`, `x2`, the output's at anything — runs
    to the continuation holding the inputs' as they were and the output's at `out1_3 x0 x1 x2`: it reads the three
    inputs whole, reads the output whole (a value it never uses), and overwrites the output whole with the pointwise
    result, so what the output reads afterwards is that result at every index. -/
theorem sound_kernel1 (c : Dev nD) (E : Set ℕ) (i : grid1.Coords)
    (arg2 : Memref sig .tc .vmem S512x2048 .f32) (harg2 : arg2.IsWhole)
    (arg3 : Memref sig .tc .vmem S512x1 .f32) (harg3 : arg3.IsWhole)
    (arg4 : Memref sig .tc .vmem S512x1 .f32) (harg4 : arg4.IsWhole)
    (arg5 : Memref sig .tc .vmem S512x2048 .f32) (harg5 : arg5.IsWhole)
    (x0 : Vec F S512x2048 .f32) (x1 : Vec F S512x1 .f32) (x2 : Vec F S512x1 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out1_3 x0 x1 x2)) -∗ K ⟨⟩))
      ⊢ wp frame (wpE (defs₀ (F := F)) Variants.none c none) E (cc1__quant_kernel i arg2 harg2 arg3 harg3 arg4 harg4 arg5 harg5) K := by
  simp only [cc1__quant_kernel_eq_skeleton]; unfold cc1__quant_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _
      (fun y => ⟨_, List.mem_singleton_self _, View.mem_set_unit_zero offs_zero_reg1 inb_S512x2048_S512x2048_0_0 y⟩),
    View.canon_unit_zero offs_zero_reg1 inb_S512x2048_S512x2048_0_0]
  unfold out1_3
  rw [View.readAt_eq_ld, View.readAt_eq_ld, View.readAt_eq_ld,
    View.ld_unit_zero offs_zero_reg1 inb_S512x1_S512x1_0_0, View.ld_unit_zero offs_zero_reg1 inb_S512x1_S512x1_0_0,
    View.ld_unit_zero offs_zero_reg1 inb_S512x2048_S512x2048_0_0]

/-! ## The body obligation, at a generic point -/

/-- What the body is called with at point `t`: the invariant, the core's debts, and each window's current buffer at
    what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' buffers hold their blocks, the output's holds something, so the body's
    triple applies; the invariant and the debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
/-
  The whole program as four items in order: the first kernel region, the fifteen host operations that turn the row
  minima and maxima into the scale, the rounding that gives the zero point, the second kernel region. Between two
  items every unscoped buffer is held at contents named here (`B0` at launch ... `B4` at the end): a host stretch applies
  its operations, a region replaces its windows' arrays by what its write-backs leave. Every weakly fair execution
  terminates with every unscoped buffer at `B4`; the argument is read back through the boundaries to its launch contents.
-/
import proofs.«153488_j16260746183110_1_alg».proof.Proof.Kernel.Reg0
import proofs.«153488_j16260746183110_1_alg».proof.Proof.Kernel.Reg1
import proofs.«153488_j16260746183110_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => m (c, b)
/-- The same read at the TensorCore's references (what region 0's proof data take). -/
abbrev U0 : (c : Dev nD) → (b : Ref sig .tc) → Buf (Elt F) ((c : Thread nD τ).loc b) := fun c b => B0 m c b
/-- After region 0: its arrays at what the pipeline leaves, every other buffer as entered. -/
def B1 (c : Dev nD) : Valuation τ sig (Elt F) :=
  Pipeline.withArrays spec0 c (B0 m c) fun w => (dat0 (U0 m) c).arrAt w cfg0.N
theorem B1_arr (c : Dev nD) (w : Fin cfg0.W) :
    B1 m c (Proc.devRef .tc (Pipeline.arrRef spec0 w)) = (dat0 (U0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev U1 : (c : Dev nD) → (b : Ref sig .tc) → Buf (Elt F) ((c : Thread nD τ).loc b) := fun c b => B1 m c b
theorem hF0 (c : Dev nD) (w : Fin cfg0.W) : (dat0 (U0 m) c).arrAt w cfg0.N = U1 m c (Pipeline.arrRef spec0 w) :=
  (B1_arr m c w).symm
theorem hrest0 (c : Dev nD) : ∀ b, b ∉ Finset.univ.image (Pipeline.arrRef spec0) → U1 m c b = U0 m c b :=
  fun b hb => B1_of_ne m c b fun w e => hb (Finset.mem_image.mpr ⟨w, Finset.mem_univ _, e⟩)

/-- After the fifteen host operations. -/
abbrev B2 : Dev nD → Valuation τ sig (Elt F) := fun c => StableHlo.after hostOps1 (B1 m c)
/-- After the rounding (region 1's entry). -/
abbrev B3 : Dev nD → Valuation τ sig (Elt F) := fun c => StableHlo.after hostOps1_1 (B2 m c)
abbrev U3 : (c : Dev nD) → (b : Ref sig .tc) → Buf (Elt F) ((c : Thread nD τ).loc b) := fun c b => B3 m c b
/-- After region 1: its arrays at what the pipeline leaves, every other buffer as entered. -/
def B4 (c : Dev nD) : Valuation τ sig (Elt F) :=
  Pipeline.withArrays spec1 c (B3 m c) fun w => (dat1 (U3 m) c).arrAt w cfg1.N
theorem B4_arr (c : Dev nD) (w : Fin cfg1.W) :
    B4 m c (Proc.devRef .tc (Pipeline.arrRef spec1 w)) = (dat1 (U3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev U4 : (c : Dev nD) → (b : Ref sig .tc) → Buf (Elt F) ((c : Thread nD τ).loc b) := fun c b => B4 m c b
theorem hF1 (c : Dev nD) (w : Fin cfg1.W) : (dat1 (U3 m) c).arrAt w cfg1.N = U4 m c (Pipeline.arrRef spec1 w) :=
  (B4_arr m c w).symm
theorem hrest1 (c : Dev nD) : ∀ b, b ∉ Finset.univ.image (Pipeline.arrRef spec1) → U4 m c b = U3 m c b :=
  fun b hb => B4_of_ne m c b fun w e => hb (Finset.mem_image.mpr ⟨w, Finset.mem_univ _, e⟩)

/-- The result array at the end is what region 1's write-backs leave. -/
theorem B4_main_v13 (c : Dev nD) : B4 m c (Proc.devRef .tc main_v13) = (dat1 (U3 m) c).arrAt 3 cfg1.N :=
  B4_arr m c 3

/-- The argument reaches the end as launched: no host operation writes it and both regions only read it. -/
theorem B3_main_arg0 (c : Dev nD) : B3 m c (Proc.devRef .tc main_arg0) = m ((c : Thread nD τ).loc main_arg0) := by
  show StableHlo.after hostOps1_1 (StableHlo.after hostOps1 (B1 m c)) (Proc.devRef .tc main_arg0) = _
  rw [StableHlo.after_of_writes_sub hostOps1_1 _ hostOps1_1_writes (by decide),
    StableHlo.after_of_writes_sub hostOps1 _ hostOps1_writes (by decide)]
  exact (B1_arr m c 0).trans ((Pipeline.Dat.arrAt_in (dat := dat0 (U0 m) c) 0 rfl cfg0.N).trans (A_eq0 (U0 m) c 0))
theorem B4_main_arg0 (c : Dev nD) : B4 m c (Proc.devRef .tc main_arg0) = m ((c : Thread nD τ).loc main_arg0) :=
  (B4_arr m c 0).trans (((Pipeline.Dat.arrAt_in (dat := dat1 (U3 m) c) 0 rfl cfg1.N).trans (A_eq1 (U3 m) c 0)).trans (B3_main_arg0 m c))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem hostOps1_1_fresh' : (hostOps1_1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m c) ∗ ∃ r, prngReg c r)

/-! ## The regions as items -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (adm (F := F) 0).1
          ∗ Pipeline.scopedRest (Pipeline.pin (pcfgs (F := F)) adm 0).spec c) : sProp 𝕄) ⊢ Pipeline.ΦA spec0 c := by
      unfold Pipeline.ΦA
      iintro ⟨Hp, -, Hr⟩
      isplitl [Hr]; · iexact Hr
      iexact Hp
    exact h1.trans (hin0 (U0 m) c)
  hout c := by
    rw [Pipeline.ownSems0_none]
    have h1 : (Pipeline.ΦA spec0 c : sProp 𝕄)
        ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (U0 m) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

abbrev segs : List (Pipeline.Seg (pcfgs (F := F)) adm (pdats m) () defs₀ 𝒱₀ L lv) :=
  [ .region (reg0 m),
    .host (hseg hostOps1 hostOps1_sub hostOps1_fresh' (B1 m)),
    .host (hseg hostOps1_1 hostOps1_1_sub hostOps1_1_fresh' (B2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The frame: every weakly fair execution terminates and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (B4_main_arg0 m c)) (run_main m ρ)

end Cert.Kernel.Hand

end
-- ==== Proof.KernelIdeal.Reg0.lean ====
/-
  The first kernel region (the row minimum and maximum) at entry contents `V`: what its two scratch accumulators
  hold after each grid point, the proof data of its pipeline, and the body's triple at every point.
  Point `t` of the 8 x 8 grid is row block `t / 8`, column block `t % 8`. At a column block 0 the accumulators restart
  from +inf and -inf; at every point they take the minimum (maximum) with the block's row minima (maxima); at column
  block 7 they are copied into the two output windows, which are idle at every other point.
-/
import proofs.«153488_j16260746183110_1_alg».proof.Proof.Gen.KernelIdeal.Launch
import proofs.«153488_j16260746183110_1_alg».proof.Proof.Gen.KernelIdeal.Skeleton
import proofs.«153488_j16260746183110_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block of point `t`, at its literal type. -/
abbrev xblk0 (c : Dev nD) (t : Fin cfg0.N) : Vec F S512x2048 .f32 := iblk0 V c 0 t

/-! ## The accumulators after each point -/

/-- What the two scratch accumulators hold after the body at position `n`: the running minimum and maximum of the
    row block's column blocks up to this one, restarted at a column block 0. -/
def scAt0 (c : Dev nD) : (n : ℕ) → n < cfg0.N → Vec F S512x1 .f32 × Vec F S512x1 .f32
  | 0, hn => (k0_pay3 (xblk0 V c ⟨0, hn⟩) (k0_pay1 (F := F)), k0_pay4 (xblk0 V c ⟨0, hn⟩) (k0_pay2 (F := F)))
  | n + 1, hn =>
    if (n + 1) % 8 = 0 then
      (k0_pay3 (xblk0 V c ⟨n + 1, hn⟩) (k0_pay1 (F := F)), k0_pay4 (xblk0 V c ⟨n + 1, hn⟩) (k0_pay2 (F := F)))
    else
      (k0_pay3 (xblk0 V c ⟨n + 1, hn⟩) (scAt0 c n (Nat.lt_of_succ_lt hn)).1, k0_pay4 (xblk0 V c ⟨n + 1, hn⟩) (scAt0 c n (Nat.lt_of_succ_lt hn)).2)

/-- At a column block 0 the accumulators restart. -/
theorem scAt0_reset (c : Dev nD) (t : Fin cfg0.N) (h : t.val % 8 = 0) :
    scAt0 V c t.val t.isLt = (k0_pay3 (xblk0 V c t) (k0_pay1 (F := F)), k0_pay4 (xblk0 V c t) (k0_pay2 (F := F))) := by
  obtain ⟨n, hn⟩ := t
  cases n with
  | zero => rfl
  | succ n => exact if_pos h

/-- At any other column block they go on from what the point before left. -/
theorem scAt0_step (c : Dev nD) (t : Fin cfg0.N) (h : ¬ t.val % 8 = 0) :
    scAt0 V c t.val t.isLt
      = (k0_pay3 (xblk0 V c t) (scAt0 V c (t.val - 1) (Nat.lt_of_le_of_lt (Nat.sub_le _ _) t.isLt)).1,
         k0_pay4 (xblk0 V c t) (scAt0 V c (t.val - 1) (Nat.lt_of_le_of_lt (Nat.sub_le _ _) t.isLt)).2) := by
  obtain ⟨n, hn⟩ := t
  cases n with
  | zero => exact absurd (Nat.zero_mod _) h
  | succ n => exact if_neg h

/-! ## The region invariant -/

/-- The two scratch accumulators as memrefs. -/
abbrev scM0_0 : Memref sig .tc .vmem S512x1 .f32 := Memref.whole cc0_scratch0
abbrev scM0_1 : Memref sig .tc .vmem S512x1 .f32 := Memref.whole cc0_scratch1

/-- The scoped buffers that are neither a staging buffer of this pipeline nor one of its accumulators (the second
    region's staging buffers), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class's invariant with the accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

/-- The region invariant before position `n`: before the first point the class's (every scratch at anything);
    afterwards the accumulators at what the point before left, the other scoped buffers at anything, the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((scAt0 V c n hn).1) ∗ owns (c : Thread nD τ) scM0_1 fullShare ((scAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((scAt0 V c n hn).1) ∗ owns (c : Thread nD τ) scM0_1 fullShare ((scAt0 V c n hn).2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((scAt0 V c (n - 1) (by omega)).1) ∗ owns (c : Thread nD τ) scM0_1 fullShare ((scAt0 V c (n - 1) (by omega)).2) ∗ rest0 (F := F) c) ∗ (∃ r, prngReg c r)) := by
  cases n with
  | zero => exact absurd rfl hz
  | succ n => rfl

/-! ## The pipeline's proof data -/

/-- The proof data of pipeline 0 on core `c`: the arrays as the region finds them; after the body at point `t` the
    input's buffer at its block, the two outputs' at the accumulators' contents (what the body copies into them at a
    column block 7; at the other points the windows are idle and the value is not consulted); the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (scAt0 V c t.val t.isLt).1
    | ⟨2, _⟩ => (scAt0 V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (scAt0 V c t.val t.isLt).1 := by dsimp only [dat0]
theorem after0_2 (c : Dev nD) (t : Fin cfg0.N) : (dat0 V c).after 2 t = (scAt0 V c t.val t.isLt).2 := by dsimp only [dat0]

/-! ## The body's branch conditions, and where the output windows are idle -/

/-- The first branch (restart the accumulators) is taken at a column block 0, -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- the second (copy the accumulators out) at a column block 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The input window is never idle; the two output windows are idle, and not written back, exactly where the second
    branch is not taken. -/
theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The body's run, case by case -/

theorem hz2 : (![0, 0] : Fin 2 → Nat) = fun _ => 0 := by funext a; fin_cases a <;> rfl

/-- One store through the whole buffer covers it. -/
theorem cover_one (inb : ∀ a, (![0, 0] : Fin 2 → Nat) a + (S512x1).size a ≤ (S512x1).size a)
    (p : S512x1.Idx → Elt F .f32) (L : List (View.Piece (Elt F) S512x1 .f32)) (y : S512x1.Idx) :
    ∃ pc ∈ ((⟨Rect.unit ![0, 0] S512x1.size inb, p⟩ : View.Piece (Elt F) S512x1 .f32) :: L), y ∈ pc.1.set :=
  ⟨_, List.mem_cons_self, View.mem_set_unit_zero hz2 inb y⟩

set_option maxHeartbeats 1000000 in
/-- At a column block strictly between the first and the last: each accumulator takes its minimum (maximum) with the
    block's row minima (maxima); the output windows are handed back untouched. -/
theorem run0_B (c : Dev nD) (E : Set ℕ) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole)
    (hc0 : ¬cond0_0 i) (hc1 : ¬cond0_1 i)
    (x0 : Vec F S512x2048 .f32) (xi1 xi2 s5 s6 : Vec F S512x1 .f32) (K : PUnit → sProp 𝕄) :
    iprop(owns (c : Thread nD τ) arg2 fullShare x0 ∗ owns (c : Thread nD τ) arg3 fullShare xi1 ∗ owns (c : Thread nD τ) arg4 fullShare xi2
        ∗ owns (c : Thread nD τ) arg5 fullShare s5 ∗ owns (c : Thread nD τ) arg6 fullShare s6
        ∗ (iprop(owns (c : Thread nD τ) arg2 fullShare x0 ∗ owns (c : Thread nD τ) arg3 fullShare xi1 ∗ owns (c : Thread nD τ) arg4 fullShare xi2
            ∗ owns (c : Thread nD τ) arg5 fullShare (k0_pay3 x0 s5) ∗ owns (c : Thread nD τ) arg6 fullShare (k0_pay4 x0 s6)) -∗ K ⟨⟩))
      ⊢ wp frame (wpE (defs₀ (F := F)) Variants.none c none) E (cc0__minmax_kernel i arg2 harg2 arg3 harg3 arg4 harg4 arg5 harg5 arg6 harg6) K := by
  simp only [cc0__minmax_kernel_eq_skeleton]; unfold cc0__minmax_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  subst hf0 hf1 hf2 hf5 hf6
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H5]
  · iexists _; isplitr
    swap; · iexact H5
    ipureintro
    refine (View.read_writes_eq_canon _ _ _ (cover_one _ _ _)).trans ?_
    rw [View.canon_unit_zero hz2]
    simp only [View.readAt_eq_ld, View.ld_unit_zero (S := S512x2048) hz2, View.ld_unit_zero (S := S512x1) hz2]
  · iexists _; isplitr
    swap; · iexact H6
    ipureintro
    refine (View.read_writes_eq_canon _ _ _ (cover_one _ _ _)).trans ?_
    rw [View.canon_unit_zero hz2]
    simp only [View.readAt_eq_ld, View.ld_unit_zero (S := S512x2048) hz2, View.ld_unit_zero (S := S512x1) hz2]

set_option maxHeartbeats 1000000 in
/-- At a column block 0 (the row block's first): the accumulators, whatever they held, restart from +inf and -inf and
    take the block's row minima and maxima; the output windows are handed back untouched. -/
theorem run0_A (c : Dev nD) (E : Set ℕ) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole)
    (hc0 : cond0_0 i) (hc1 : ¬cond0_1 i)
    (x0 : Vec F S512x2048 .f32) (xi1 xi2 : Vec F S512x1 .f32) (K : PUnit → sProp 𝕄) :
    iprop(owns (c : Thread nD τ) arg2 fullShare x0 ∗ owns (c : Thread nD τ) arg3 fullShare xi1 ∗ owns (c : Thread nD τ) arg4 fullShare xi2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare xi1 ∗ owns (c : Thread nD τ) arg4 fullShare xi2
            ∗ owns (c : Thread nD τ) arg5 fullShare (k0_pay3 x0 (k0_pay1 (F := F))) ∗ owns (c : Thread nD τ) arg6 fullShare (k0_pay4 x0 (k0_pay2 (F := F)))) -∗ K ⟨⟩))
      ⊢ wp frame (wpE (defs₀ (F := F)) Variants.none c none) E (cc0__minmax_kernel i arg2 harg2 arg3 harg3 arg4 harg4 arg5 harg5 arg6 harg6) K := by
  simp only [cc0__minmax_kernel_eq_skeleton]; unfold cc0__minmax_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  subst hf0 hf1 hf2
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H5]
  · iexists _; isplitr
    swap; · iexact H5
    ipureintro
    refine (View.read_writes_eq_canon _ _ _ (cover_one _ _ _)).trans ?_
    sl_unfold_words
    rw [View.canon_cons_unit_zero hz2]
    simp only [View.readAt_eq_ld, View.ld_unit_zero (S := S512x2048) hz2, View.ld_unit_zero (S := S512x1) hz2, View.readCov_unit_zero (S := S512x1) _ hz2]
  · iexists _; isplitr
    swap; · iexact H6
    ipureintro
    refine (View.read_writes_eq_canon _ _ _ (cover_one _ _ _)).trans ?_
    sl_unfold_words
    rw [View.canon_cons_unit_zero hz2]
    simp only [View.readAt_eq_ld, View.ld_unit_zero (S := S512x2048) hz2, View.ld_unit_zero (S := S512x1) hz2, View.readCov_unit_zero (S := S512x1) _ hz2]

set_option maxHeartbeats 1000000 in
/-- At a column block 7 (the row block's last): the accumulators take the block's row minima and maxima, and the two
    output windows, whatever they held, take the accumulators' new contents. -/
theorem run0_C (c : Dev nD) (E : Set ℕ) (i : grid0.Coords) (arg2 : Memref sig .tc .vmem S512x2048 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole)
    (hc0 : ¬cond0_0 i) (hc1 : cond0_1 i)
    (x0 : Vec F S512x2048 .f32) (s5 s6 : Vec F S512x1 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ owns (c : Thread nD τ) arg5 fullShare s5 ∗ owns (c : Thread nD τ) arg6 fullShare s6
        ∗ (iprop(owns (c : Thread nD τ) arg2 fullShare x0 ∗ owns (c : Thread nD τ) arg3 fullShare (k0_pay3 x0 s5) ∗ owns (c : Thread nD τ) arg4 fullShare (k0_pay4 x0 s6)
            ∗ owns (c : Thread nD τ) arg5 fullShare (k0_pay3 x0 s5) ∗ owns (c : Thread nD τ) arg6 fullShare (k0_pay4 x0 s6)) -∗ K ⟨⟩))
      ⊢ wp frame (wpE (defs₀ (F := F)) Variants.none c none) E (cc0__minmax_kernel i arg2 harg2 arg3 harg3 arg4 harg4 arg5 harg5 arg6 harg6) K := by
  simp only [cc0__minmax_kernel_eq_skeleton]; unfold cc0__minmax_kernel_skel
  unfold owns
  iintro ⟨⟨%f0, %hf0, H0⟩, ⟨%d1, %f1, -, H1⟩, ⟨%d2, %f2, -, H2⟩, ⟨%f5, %hf5, H5⟩, ⟨%f6, %hf6, H6⟩, Hk⟩
  subst hf0 hf5 hf6
  sl_exec (disch := first | exact hc0 | exact hc1)
  sl_step
  iapply Hk
  isplitl [H0]; · iexists f0; isplitr; · ipureintro; rfl
                  iexact H0
  isplitl [H1]
  · iexists _; isplitr
    swap; · iexact H1
    ipureintro
    refine (View.read_writes_eq_canon _ _ _ (cover_one _ _ _)).trans ?_
    sl_unfold_words
    rw [View.canon_unit_zero hz2]
    simp only [View.readAt_eq_ld, View.ld_unit_zero (S := S512x2048) hz2, View.ld_unit_zero (S := S512x1) hz2, View.readCov_unit_zero (S := S512x1) _ hz2]
  isplitl [H2]
  · iexists _; isplitr
    swap; · iexact H2
    ipureintro
    refine (View.read_writes_eq_canon _ _ _ (cover_one _ _ _)).trans ?_
    sl_unfold_words
    rw [View.canon_unit_zero hz2]
    simp only [View.readAt_eq_ld, View.ld_unit_zero (S := S512x2048) hz2, View.ld_unit_zero (S := S512x1) hz2, View.readCov_unit_zero (S := S512x1) _ hz2]
  isplitl [H5]
  · iexists _; isplitr
    swap; · iexact H5
    ipureintro
    refine (View.read_writes_eq_canon _ _ _ (cover_one _ _ _)).trans ?_
    rw [View.canon_unit_zero hz2]
    simp only [View.readAt_eq_ld, View.ld_unit_zero (S := S512x2048) hz2, View.ld_unit_zero (S := S512x1) hz2]
  · iexists _; isplitr
    swap; · iexact H6
    ipureintro
    refine (View.read_writes_eq_canon _ _ _ (cover_one _ _ _)).trans ?_
    rw [View.canon_unit_zero hz2]
    simp only [View.readAt_eq_ld, View.ld_unit_zero (S := S512x2048) hz2, View.ld_unit_zero (S := S512x1) hz2]

/-! ## The body obligation, at a generic point -/

/-- Each window's current staging memref at point `t`, as the pipeline passes it, and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)

/-- The input's current staging buffer holds its block at every point (it is fetched at every point). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-- Before any point the invariant gives the accumulators at SOME contents (all a restart needs). -/
theorem PhiS_any (c : Dev nD) (t : Fin cfg0.N) :
    (dat0 V c).Φ t.castSucc ⊢ iprop(iprop((∃ d, owns (c : Thread nD τ) scM0_0 fullShare d) ∗ (∃ d, owns (c : Thread nD τ) scM0_1 fullShare d) ∗ rest0 (F := F) c) ∗ (∃ r, prngReg c r)) := by
  rw [PhiS_castSucc V c t]
  by_cases hz : t.val = 0
  · rw [PhiS_zero V c _ _ hz, PhiA0_eq]
  · rw [PhiS_pos V c _ _ hz]
    iintro ⟨⟨HS0, HS1, Hr⟩, Hg⟩
    isplitl [HS0 HS1 Hr]
    · isplitl [HS0]; · iexists _; iexact HS0
      isplitl [HS1]; · iexists _; iexact HS1
      iexact Hr
    iexact Hg

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

set_option maxHeartbeats 4800000 in
/-- The body at any point. The input's memref holds its block; the closed forms say which case the point is in. At a
    column block 7 the invariant hands over the accumulators at what the point before left and the outputs leave
    holding the new contents; at a column block 0 the accumulators come at anything and restart; elsewhere they go on
    from the point before and the output windows, idle there, are handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
      unfold Dat.leavesExact; rw [liveAt0_0 t], after0_0]
  have hN : t.val < 64 := lt_of_lt_of_eq t.isLt (show cfg0.N = 64 from N_0)
  by_cases h1 : t.val % 8 = 7
  · have hc1 : cond0_1 (grid0.coords t) := (hcond0_1 t).mpr h1
    have h0 : ¬ t.val % 8 = 0 := by omega
    have hc0 : ¬cond0_0 (grid0.coords t) := fun h => h0 ((hcond0_0 t).mp h)
    have hz : t.val ≠ 0 := by omega
    rw [show (dat0 V c).leavesExact 1 t = owns (c : Thread nD τ) (ms0_1 t) fullShare ((dat0 V c).after 1 t) from by
        unfold Dat.leavesExact; rw [liveAt0_1 t hc1], after0_1]
    rw [show (dat0 V c).leavesExact 2 t = owns (c : Thread nD τ) (ms0_2 t) fullShare ((dat0 V c).after 2 t) from by
        unfold Dat.leavesExact; rw [liveAt0_2 t hc1], after0_2]
    rw [scAt0_step V c t h0]; dsimp only
    rw [PhiS_castSucc V c t, PhiS_pos V c _ _ hz]
    iintro ⟨⟨⟨HS0, HS1, Hr⟩, Hg⟩, Ho, ⟨%d0, H0⟩, ⟨%d1, H1⟩, ⟨%d2, H2⟩⟩
    iapply (run0_C c Set.univ (grid0.coords t) _ _ _ _ _ _ _ _ _ _ hc0 hc1 (iblk0 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    iexact H2
  · have hc1 : ¬cond0_1 (grid0.coords t) := fun h => h1 ((hcond0_1 t).mp h)
    rw [Dat.leavesExact_idle (dat0 V c) 1 t (idleAt0_1 t hc1) (noFlush0_1 t hc1)]
    rw [Dat.leavesExact_idle (dat0 V c) 2 t (idleAt0_2 t hc1) (noFlush0_2 t hc1)]
    by_cases h0 : t.val % 8 = 0
    · have hc0 : cond0_0 (grid0.coords t) := (hcond0_0 t).mpr h0
      rw [scAt0_reset V c t h0]; dsimp only
      iintro ⟨HPhi, Ho, ⟨%d0, H0⟩, ⟨%d1, H1⟩, ⟨%d2, H2⟩⟩
      have hany := PhiS_any V c t
      ihave HPhi' := hany $$ HPhi
      icases HPhi' with ⟨⟨HS0, HS1, Hr⟩, Hg⟩
      iapply (run0_A c Set.univ (grid0.coords t) _ _ _ _ _ _ _ _ _ _ hc0 hc1 (iblk0 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexists _; iexact H1
      iexists _; iexact H2
    · have hc0 : ¬cond0_0 (grid0.coords t) := fun h => h0 ((hcond0_0 t).mp h)
      have hz : t.val ≠ 0 := fun e => h0 (by rw [e])
      rw [scAt0_step V c t h0]; dsimp only
      rw [PhiS_castSucc V c t, PhiS_pos V c _ _ hz]
      iintro ⟨⟨⟨HS0, HS1, Hr⟩, Hg⟩, Ho, ⟨%d0, H0⟩, ⟨%d1, H1⟩, ⟨%d2, H2⟩⟩
      iapply (run0_B c Set.univ (grid0.coords t) _ _ _ _ _ _ _ _ _ _ hc0 hc1 (iblk0 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexists _; iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end Cert.KernelIdeal.Hand

end
-- ==== Proof.KernelIdeal.Reg1.lean ====
/-
  The second kernel region (quantise, clamp, dequantise) at entry contents `V`: each grid point reads its block of the
  input and the matching 512 rows of the scale and zero-point columns, and stores one block of the result, a pointwise
  function of the three.
-/
import proofs.«153488_j16260746183110_1_alg».proof.Proof.Gen.KernelIdeal.Launch
import proofs.«153488_j16260746183110_1_alg».proof.Proof.Gen.KernelIdeal.Skeleton
import proofs.«153488_j16260746183110_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body leaves in the output window's buffer -/

/-- The result block from the input block `x0`, the scale rows `x1` and the zero-point rows `x2`. -/
def out1_3 (x0 : Vec F S512x2048 .f32) (x1 : Vec F S512x1 .f32) (x2 : Vec F S512x1 .f32) : Vec F S512x2048 .f32 :=
  k1_pay1 x1 x2 x0

/-! ## The pipeline's proof data -/

/-- The proof data of pipeline 1 on core `c`: the arrays as the region finds them; after the body at point `t` each
    input's buffer at its block and the output's at `out1_3` of the three input blocks; the class's invariant; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## What the body finds in each input window's buffer -/

/-- The input block's buffer holds the block of the point, at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The scale rows' buffer holds the 512 rows of the point's row block at every point: it is refilled only when the
    row block changes, and between two refills the rows asked for are the same ones. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The zero-point rows' buffer likewise. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body's triple -/

/-- The offsets of a whole-block access are all zero. -/
theorem offs_zero_reg1 : (![0, 0] : Fin 2 → Nat) = fun _ => 0 := by funext a; fin_cases a <;> rfl

set_option maxHeartbeats 1000000 in
/-- The body on whole buffers — the three inputs' at read contents `x0`, `x1`, `x2`, the output's at anything — runs
    to the continuation holding the inputs' as they were and the output's at `out1_3 x0 x1 x2`: it reads the three
    inputs whole, reads the output whole (a value it never uses), and overwrites the output whole with the pointwise
    result, so what the output reads afterwards is that result at every index. -/
theorem sound_kernel1 (c : Dev nD) (E : Set ℕ) (i : grid1.Coords)
    (arg2 : Memref sig .tc .vmem S512x2048 .f32) (harg2 : arg2.IsWhole)
    (arg3 : Memref sig .tc .vmem S512x1 .f32) (harg3 : arg3.IsWhole)
    (arg4 : Memref sig .tc .vmem S512x1 .f32) (harg4 : arg4.IsWhole)
    (arg5 : Memref sig .tc .vmem S512x2048 .f32) (harg5 : arg5.IsWhole)
    (x0 : Vec F S512x2048 .f32) (x1 : Vec F S512x1 .f32) (x2 : Vec F S512x1 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out1_3 x0 x1 x2)) -∗ K ⟨⟩))
      ⊢ wp frame (wpE (defs₀ (F := F)) Variants.none c none) E (cc1__quant_kernel i arg2 harg2 arg3 harg3 arg4 harg4 arg5 harg5) K := by
  simp only [cc1__quant_kernel_eq_skeleton]; unfold cc1__quant_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _
      (fun y => ⟨_, List.mem_singleton_self _, View.mem_set_unit_zero offs_zero_reg1 inb_S512x2048_S512x2048_0_0 y⟩),
    View.canon_unit_zero offs_zero_reg1 inb_S512x2048_S512x2048_0_0]
  unfold out1_3
  rw [View.readAt_eq_ld, View.readAt_eq_ld, View.readAt_eq_ld,
    View.ld_unit_zero offs_zero_reg1 inb_S512x1_S512x1_0_0, View.ld_unit_zero offs_zero_reg1 inb_S512x1_S512x1_0_0,
    View.ld_unit_zero offs_zero_reg1 inb_S512x2048_S512x2048_0_0]

/-! ## The body obligation, at a generic point -/

/-- What the body is called with at point `t`: the invariant, the core's debts, and each window's current buffer at
    what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' buffers hold their blocks, the output's holds something, so the body's
    triple applies; the invariant and the debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
/-
  The whole program as four items in order: the first kernel region, the fifteen host operations that turn the row
  minima and maxima into the scale, the rounding that gives the zero point, the second kernel region. Between two
  items every unscoped buffer is held at contents named here (`B0` at launch ... `B4` at the end): a host stretch applies
  its operations, a region replaces its windows' arrays by what its write-backs leave. Every weakly fair execution
  terminates with every unscoped buffer at `B4`; the argument is read back through the boundaries to its launch contents.
-/
import proofs.«153488_j16260746183110_1_alg».proof.Proof.KernelIdeal.Reg0
import proofs.«153488_j16260746183110_1_alg».proof.Proof.KernelIdeal.Reg1
import proofs.«153488_j16260746183110_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => m (c, b)
/-- The same read at the TensorCore's references (what region 0's proof data take). -/
abbrev U0 : (c : Dev nD) → (b : Ref sig .tc) → Buf (Elt F) ((c : Thread nD τ).loc b) := fun c b => B0 m c b
/-- After region 0: its arrays at what the pipeline leaves, every other buffer as entered. -/
def B1 (c : Dev nD) : Valuation τ sig (Elt F) :=
  Pipeline.withArrays spec0 c (B0 m c) fun w => (dat0 (U0 m) c).arrAt w cfg0.N
theorem B1_arr (c : Dev nD) (w : Fin cfg0.W) :
    B1 m c (Proc.devRef .tc (Pipeline.arrRef spec0 w)) = (dat0 (U0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev U1 : (c : Dev nD) → (b : Ref sig .tc) → Buf (Elt F) ((c : Thread nD τ).loc b) := fun c b => B1 m c b
theorem hF0 (c : Dev nD) (w : Fin cfg0.W) : (dat0 (U0 m) c).arrAt w cfg0.N = U1 m c (Pipeline.arrRef spec0 w) :=
  (B1_arr m c w).symm
theorem hrest0 (c : Dev nD) : ∀ b, b ∉ Finset.univ.image (Pipeline.arrRef spec0) → U1 m c b = U0 m c b :=
  fun b hb => B1_of_ne m c b fun w e => hb (Finset.mem_image.mpr ⟨w, Finset.mem_univ _, e⟩)

/-- After the fifteen host operations. -/
abbrev B2 : Dev nD → Valuation τ sig (Elt F) := fun c => StableHlo.after hostOps1 (B1 m c)
/-- After the rounding (region 1's entry). -/
abbrev B3 : Dev nD → Valuation τ sig (Elt F) := fun c => StableHlo.after hostOps1_1 (B2 m c)
abbrev U3 : (c : Dev nD) → (b : Ref sig .tc) → Buf (Elt F) ((c : Thread nD τ).loc b) := fun c b => B3 m c b
/-- After region 1: its arrays at what the pipeline leaves, every other buffer as entered. -/
def B4 (c : Dev nD) : Valuation τ sig (Elt F) :=
  Pipeline.withArrays spec1 c (B3 m c) fun w => (dat1 (U3 m) c).arrAt w cfg1.N
theorem B4_arr (c : Dev nD) (w : Fin cfg1.W) :
    B4 m c (Proc.devRef .tc (Pipeline.arrRef spec1 w)) = (dat1 (U3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev U4 : (c : Dev nD) → (b : Ref sig .tc) → Buf (Elt F) ((c : Thread nD τ).loc b) := fun c b => B4 m c b
theorem hF1 (c : Dev nD) (w : Fin cfg1.W) : (dat1 (U3 m) c).arrAt w cfg1.N = U4 m c (Pipeline.arrRef spec1 w) :=
  (B4_arr m c w).symm
theorem hrest1 (c : Dev nD) : ∀ b, b ∉ Finset.univ.image (Pipeline.arrRef spec1) → U4 m c b = U3 m c b :=
  fun b hb => B4_of_ne m c b fun w e => hb (Finset.mem_image.mpr ⟨w, Finset.mem_univ _, e⟩)

/-- The result array at the end is what region 1's write-backs leave. -/
theorem B4_main_v13 (c : Dev nD) : B4 m c (Proc.devRef .tc main_v13) = (dat1 (U3 m) c).arrAt 3 cfg1.N :=
  B4_arr m c 3

/-- The argument reaches the end as launched: no host operation writes it and both regions only read it. -/
theorem B3_main_arg0 (c : Dev nD) : B3 m c (Proc.devRef .tc main_arg0) = m ((c : Thread nD τ).loc main_arg0) := by
  show StableHlo.after hostOps1_1 (StableHlo.after hostOps1 (B1 m c)) (Proc.devRef .tc main_arg0) = _
  rw [StableHlo.after_of_writes_sub hostOps1_1 _ hostOps1_1_writes (by decide),
    StableHlo.after_of_writes_sub hostOps1 _ hostOps1_writes (by decide)]
  exact (B1_arr m c 0).trans ((Pipeline.Dat.arrAt_in (dat := dat0 (U0 m) c) 0 rfl cfg0.N).trans (A_eq0 (U0 m) c 0))
theorem B4_main_arg0 (c : Dev nD) : B4 m c (Proc.devRef .tc main_arg0) = m ((c : Thread nD τ).loc main_arg0) :=
  (B4_arr m c 0).trans (((Pipeline.Dat.arrAt_in (dat := dat1 (U3 m) c) 0 rfl cfg1.N).trans (A_eq1 (U3 m) c 0)).trans (B3_main_arg0 m c))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem hostOps1_1_fresh' : (hostOps1_1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m c) ∗ ∃ r, prngReg c r)

/-! ## The regions as items -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (adm (F := F) 0).1
          ∗ Pipeline.scopedRest (Pipeline.pin (pcfgs (F := F)) adm 0).spec c) : sProp 𝕄) ⊢ Pipeline.ΦA spec0 c := by
      unfold Pipeline.ΦA
      iintro ⟨Hp, -, Hr⟩
      isplitl [Hr]; · iexact Hr
      iexact Hp
    exact h1.trans (hin0 (U0 m) c)
  hout c := by
    rw [Pipeline.ownSems0_none]
    have h1 : (Pipeline.ΦA spec0 c : sProp 𝕄)
        ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (U0 m) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

abbrev segs : List (Pipeline.Seg (pcfgs (F := F)) adm (pdats m) () defs₀ 𝒱₀ L lv) :=
  [ .region (reg0 m),
    .host (hseg hostOps1 hostOps1_sub hostOps1_fresh' (B1 m)),
    .host (hseg hostOps1_1 hostOps1_1_sub hostOps1_1_fresh' (B2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The frame: every weakly fair execution terminates and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (B4_main_arg0 m c)) (run_main m ρ)

end Cert.KernelIdeal.Hand

end
-- ==== Proof.Val.Acc.lean ====
/-
  The two accumulators of the first region in closed form. After the body at point `t` (row block `t / 8`, column
  block `t % 8`), row `r` of the first accumulator is the minimum of row `512 (t / 8) + r` of the input array over its
  first `2048 (t % 8 + 1)` columns, and row `r` of the second the maximum over the same columns: by induction on the
  point, a point's body taking the minimum (maximum) of what the point before left (+inf, -inf at a column block 0)
  with the block's row minimum (maximum).
-/
import proofs.«153488_j16260746183110_1_alg».proof.Proof.KernelIdeal.Reg0
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## A block's entry in the array -/

/-- The input window's block index at point `t`: row block `t / 8`, column block `t % 8`. -/
theorem idx0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)

/-- Entry `(r, k)` of the input block at point `t` is entry `(512 (t / 8) + r, 2048 (t % 8) + k)` of the array: on
    each axis the block index times the block's extent plus the coordinate inside. -/
theorem xblk_apply (c : Dev nD) (t : Fin cfg0.N) (r : Fin 512) (k : Fin 2048) (R : Fin 4096) (K : Fin 16384)
    (hR : R.val = 512 * (t.val / 8) + r.val) (hK : K.val = 2048 * (t.val % 8) + k.val) :
    xblk0 (F := Ideal) V c t (ix2 r k) = (V c main_arg0 (ix2 R K) : EReal) := by
  have hi := idx0 t
  unfold xblk0 iblk0
  rw [View.read_apply]
  show V c main_arg0 _ = V c main_arg0 _
  congr 1
  funext a
  apply Fin.ext
  match a with
  | ⟨0, _⟩ => show win0_0.index t 0 * 512 + 1 * r.val = R.val; rw [hi.1, hR]; omega
  | ⟨1, _⟩ => show win0_0.index t 1 * 2048 + 1 * k.val = K.val; rw [hi.2, hK]; omega

/-! ## The payloads at a row -/

/-- A vector cast to a one-column matrix reads, at row `i`, the vector at `i`: the two row-major positions agree. -/
theorem shapeCast_col_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A minimum over one axis at the exact values: the fold of `min` from the initial word's value over that axis's
    coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Row `r` with column `k` put back on the reduced axis is entry `(r, k)`. -/
theorem lift_row (r : Fin 512) (k : Fin 2048) :
    reduces_S512x2048_S512.lift (a := (1 : Fin 2)) (ix1 r) k = ix2 r k := by
  funext c
  apply Fin.ext
  match c with
  | ⟨0, _⟩ => rfl
  | ⟨1, _⟩ => rfl

/-- The two initial words are the two infinities. -/
theorem top_word : Ideal.ofBits .f32 0x7F800000#32 = (⊤ : EReal) := by simp [Ideal.ofBits, Ideal.ieee]
theorem bot_word : Ideal.ofBits .f32 0xFF800000#32 = (⊥ : EReal) := by simp [Ideal.ofBits, Ideal.ieee]

/-- The first accumulator's new contents at row `r`: the old entry against the block's row minimum. -/
theorem pay3_apply (v3 : Vec Ideal S512x2048 .f32) (v4 : Vec Ideal S512x1 .f32) (r : Fin 512) :
    k0_pay3 v3 v4 (ix2 r (0 : Fin 1))
      = min (v4 (ix2 r (0 : Fin 1)) : EReal) ((Finset.univ : Finset (Fin 2048)).fold min (⊤ : EReal) (fun k => (v3 (ix2 r k) : EReal))) := by
  unfold k0_pay3
  refine (congrFun (shapeCast_self _ _) (ix2 r (0 : Fin 1))).trans ?_
  refine (minimumf_apply _ _ _).trans ?_
  refine congrArg (min (v4 (ix2 r (0 : Fin 1)))) ?_
  refine (shapeCast_col_apply _ _ r 0).trans ?_
  refine (multiReduction_minimumf_single (φ := .f32) (s := S512x2048) (t := S512) (a := (1 : Fin 2)) v3 0x7F800000#32 reduces_S512x2048_S512 (.inl rfl) rfl (ix1 r)).trans ?_
  refine (Finset.fold_congr (g := fun k : Fin 2048 => (v3 (ix2 r k) : EReal)) fun k _ => congrArg v3 (lift_row r k)).trans ?_
  exact congrArg (fun b : EReal => Finset.fold min b (fun k : Fin 2048 => (v3 (ix2 r k) : EReal)) Finset.univ) top_word

/-- The second accumulator's new contents at row `r`: the old entry against the block's row maximum. -/
theorem pay4_apply (v3 : Vec Ideal S512x2048 .f32) (v11 : Vec Ideal S512x1 .f32) (r : Fin 512) :
    k0_pay4 v3 v11 (ix2 r (0 : Fin 1))
      = max (v11 (ix2 r (0 : Fin 1)) : EReal) ((Finset.univ : Finset (Fin 2048)).fold max (⊥ : EReal) (fun k => (v3 (ix2 r k) : EReal))) := by
  unfold k0_pay4
  refine (congrFun (shapeCast_self _ _) (ix2 r (0 : Fin 1))).trans ?_
  refine (maximumf_apply _ _ _).trans ?_
  refine congrArg (max (v11 (ix2 r (0 : Fin 1)))) ?_
  refine (shapeCast_col_apply _ _ r 0).trans ?_
  refine (Ideal.multiReduction_maximumf_single (φ := .f32) (s := S512x2048) (t := S512) (a := (1 : Fin 2)) v3 0xFF800000#32 reduces_S512x2048_S512 (.inl rfl) rfl (ix1 r)).trans ?_
  refine (Finset.fold_congr (g := fun k : Fin 2048 => (v3 (ix2 r k) : EReal)) fun k _ => congrArg v3 (lift_row r k)).trans ?_
  exact congrArg (fun b : EReal => Finset.fold max b (fun k : Fin 2048 => (v3 (ix2 r k) : EReal)) Finset.univ) bot_word

/-- The accumulators' restart values at a row: the two infinities. -/
theorem pay1_apply (r : Fin 512) : (k0_pay1 (F := Ideal)) (ix2 r (0 : Fin 1)) = (⊤ : EReal) := by
  unfold k0_pay1
  refine (congrFun (shapeCast_self _ _) (ix2 r (0 : Fin 1))).trans ?_
  exact top_word

theorem pay2_apply (r : Fin 512) : (k0_pay2 (F := Ideal)) (ix2 r (0 : Fin 1)) = (⊥ : EReal) := by
  unfold k0_pay2
  refine (congrFun (shapeCast_self _ _) (ix2 r (0 : Fin 1))).trans ?_
  exact bot_word

/-! ## A row's leading columns, one column block more -/

/-- The columns below `2048 (j + 1)` are the columns below `2048 j` and the 2048 columns of column block `j`. -/
theorem cols_succ (j : ℕ) (hj : j < 8) :
    (Finset.univ.filter fun k : Fin 16384 => k.val < 2048 * (j + 1))
      = (Finset.univ.filter fun k : Fin 16384 => k.val < 2048 * j)
          ∪ Finset.univ.image (fun k : Fin 2048 => (⟨2048 * j + k.val, by have := k.isLt; omega⟩ : Fin 16384)) := by
  ext k
  simp only [Finset.mem_filter, Finset.mem_univ, true_and, Finset.mem_union, Finset.mem_image]
  constructor
  · intro h
    by_cases h' : k.val < 2048 * j
    · exact Or.inl h'
    · exact Or.inr ⟨⟨k.val - 2048 * j, by omega⟩, Fin.ext (by show 2048 * j + (k.val - 2048 * j) = k.val; omega)⟩
  · rintro (h | ⟨k', rfl⟩)
    · omega
    · have := k'.isLt
      show 2048 * j + k'.val < 2048 * (j + 1)
      omega

/-- So the minimum over the first is the minimum of the two minima (`min` being commutative, associative and
    idempotent, with unit `⊤`: the fold is the infimum over the set, and the infimum over a union is the `min` of the two). -/
theorem fold_min_cols_succ (f : Fin 16384 → EReal) (j : ℕ) (hj : j < 8) :
    (Finset.univ.filter fun k : Fin 16384 => k.val < 2048 * (j + 1)).fold min (⊤ : EReal) f
      = min ((Finset.univ.filter fun k : Fin 16384 => k.val < 2048 * j).fold min (⊤ : EReal) f)
          ((Finset.univ : Finset (Fin 2048)).fold min (⊤ : EReal) fun k => f ⟨2048 * j + k.val, by have := k.isLt; omega⟩) := by
  rw [cols_succ j hj]
  show Finset.inf _ f = min (Finset.inf _ f) (Finset.inf _ _)
  rw [Finset.inf_union, Finset.inf_image]
  rfl

/-- Likewise the maximum, with `max` and `⊥`. -/
theorem fold_max_cols_succ (f : Fin 16384 → EReal) (j : ℕ) (hj : j < 8) :
    (Finset.univ.filter fun k : Fin 16384 => k.val < 2048 * (j + 1)).fold max (⊥ : EReal) f
      = max ((Finset.univ.filter fun k : Fin 16384 => k.val < 2048 * j).fold max (⊥ : EReal) f)
          ((Finset.univ : Finset (Fin 2048)).fold max (⊥ : EReal) fun k => f ⟨2048 * j + k.val, by have := k.isLt; omega⟩) := by
  rw [cols_succ j hj]
  show Finset.sup _ f = max (Finset.sup _ f) (Finset.sup _ _)
  rw [Finset.sup_union, Finset.sup_image]
  rfl

/-- No column is below `2048 · 0`. -/
theorem cols_zero (j : ℕ) (hj : j = 0) : (Finset.univ.filter fun k : Fin 16384 => k.val < 2048 * j) = ∅ := by
  subst hj
  ext k
  simp

/-! ## The accumulators at every point -/

/-- The new first accumulator at row `r` after point `t`, whatever it held: the old entry against the minimum of row
    `R` of the array over the columns of column block `t % 8`. -/
theorem min_at (c : Dev nD) (t : Fin cfg0.N) (r : Fin 512) (R : Fin 4096) (hR : R.val = 512 * (t.val / 8) + r.val)
    (v4 : Vec Ideal S512x1 .f32) :
    k0_pay3 (xblk0 (F := Ideal) V c t) v4 (ix2 r (0 : Fin 1))
      = min (v4 (ix2 r (0 : Fin 1)) : EReal)
          ((Finset.univ : Finset (Fin 2048)).fold min (⊤ : EReal) fun k =>
            (V c main_arg0 (ix2 R (⟨2048 * (t.val % 8) + k.val, by have := k.isLt; omega⟩ : Fin 16384)) : EReal)) :=
  (pay3_apply (xblk0 (F := Ideal) V c t) v4 r).trans
    (congrArg (min (v4 (ix2 r (0 : Fin 1)) : EReal)) (Finset.fold_congr fun k _ => xblk_apply V c t r k R _ hR rfl))

/-- The new second accumulator, likewise with the maximum. -/
theorem max_at (c : Dev nD) (t : Fin cfg0.N) (r : Fin 512) (R : Fin 4096) (hR : R.val = 512 * (t.val / 8) + r.val)
    (v11 : Vec Ideal S512x1 .f32) :
    k0_pay4 (xblk0 (F := Ideal) V c t) v11 (ix2 r (0 : Fin 1))
      = max (v11 (ix2 r (0 : Fin 1)) : EReal)
          ((Finset.univ : Finset (Fin 2048)).fold max (⊥ : EReal) fun k =>
            (V c main_arg0 (ix2 R (⟨2048 * (t.val % 8) + k.val, by have := k.isLt; omega⟩ : Fin 16384)) : EReal)) :=
  (pay4_apply (xblk0 (F := Ideal) V c t) v11 r).trans
    (congrArg (max (v11 (ix2 r (0 : Fin 1)) : EReal)) (Finset.fold_congr fun k _ => xblk_apply V c t r k R _ hR rfl))

/-- By induction on the point: at a column block 0 the restart value `⊤` is the minimum over no column; at any other
    the point before, in the same row block, left the minimum over the column blocks before this one. -/
theorem acc_min_aux (c : Dev nD) : ∀ (n : ℕ) (t : Fin cfg0.N), t.val = n → ∀ (r : Fin 512) (R : Fin 4096),
    R.val = 512 * (t.val / 8) + r.val →
    (scAt0 (F := Ideal) V c t.val t.isLt).1 (ix2 r (0 : Fin 1))
      = (Finset.univ.filter fun k : Fin 16384 => k.val < 2048 * (t.val % 8 + 1)).fold min (⊤ : EReal)
          (fun k => (V c main_arg0 (ix2 R k) : EReal)) := by
  intro n
  induction n with
  | zero =>
    intro t ht r R hR
    have h8 : t.val % 8 = 0 := by omega
    rw [scAt0_reset V c t h8]
    dsimp only
    refine (min_at V c t r R hR (k0_pay1 (F := Ideal))).trans ?_
    rw [pay1_apply, fold_min_cols_succ _ (t.val % 8) (by omega), cols_zero (t.val % 8) h8, Finset.fold_empty]
  | succ n ih =>
    intro t ht r R hR
    by_cases h8 : t.val % 8 = 0
    · rw [scAt0_reset V c t h8]
      dsimp only
      refine (min_at V c t r R hR (k0_pay1 (F := Ideal))).trans ?_
      rw [pay1_apply, fold_min_cols_succ _ (t.val % 8) (by omega), cols_zero (t.val % 8) h8, Finset.fold_empty]
    · rw [scAt0_step V c t h8]
      dsimp only
      refine (min_at V c t r R hR _).trans ?_
      have hp := ih ⟨t.val - 1, Nat.lt_of_le_of_lt (Nat.sub_le _ _) t.isLt⟩ (by show t.val - 1 = n; omega) r R
        (by show R.val = 512 * ((t.val - 1) / 8) + r.val; omega)
      have hc : (t.val - 1) % 8 + 1 = t.val % 8 := by omega
      have hp' : (scAt0 (F := Ideal) V c (t.val - 1) (Nat.lt_of_le_of_lt (Nat.sub_le _ _) t.isLt)).1 (ix2 r (0 : Fin 1))
          = (Finset.univ.filter fun k : Fin 16384 => k.val < 2048 * (t.val % 8)).fold min (⊤ : EReal)
              (fun k => (V c main_arg0 (ix2 R k) : EReal)) := by
        rw [← hc]; exact hp
      rw [hp', fold_min_cols_succ _ (t.val % 8) (by omega)]

/-- The same induction for the maximum, from `⊥`. -/
theorem acc_max_aux (c : Dev nD) : ∀ (n : ℕ) (t : Fin cfg0.N), t.val = n → ∀ (r : Fin 512) (R : Fin 4096),
    R.val = 512 * (t.val / 8) + r.val →
    (scAt0 (F := Ideal) V c t.val t.isLt).2 (ix2 r (0 : Fin 1))
      = (Finset.univ.filter fun k : Fin 16384 => k.val < 2048 * (t.val % 8 + 1)).fold max (⊥ : EReal)
          (fun k => (V c main_arg0 (ix2 R k) : EReal)) := by
  intro n
  induction n with
  | zero =>
    intro t ht r R hR
    have h8 : t.val % 8 = 0 := by omega
    rw [scAt0_reset V c t h8]
    dsimp only
    refine (max_at V c t r R hR (k0_pay2 (F := Ideal))).trans ?_
    rw [pay2_apply, fold_max_cols_succ _ (t.val % 8) (by omega), cols_zero (t.val % 8) h8, Finset.fold_empty]
  | succ n ih =>
    intro t ht r R hR
    by_cases h8 : t.val % 8 = 0
    · rw [scAt0_reset V c t h8]
      dsimp only
      refine (max_at V c t r R hR (k0_pay2 (F := Ideal))).trans ?_
      rw [pay2_apply, fold_max_cols_succ _ (t.val % 8) (by omega), cols_zero (t.val % 8) h8, Finset.fold_empty]
    · rw [scAt0_step V c t h8]
      dsimp only
      refine (max_at V c t r R hR _).trans ?_
      have hp := ih ⟨t.val - 1, Nat.lt_of_le_of_lt (Nat.sub_le _ _) t.isLt⟩ (by show t.val - 1 = n; omega) r R
        (by show R.val = 512 * ((t.val - 1) / 8) + r.val; omega)
      have hc : (t.val - 1) % 8 + 1 = t.val % 8 := by omega
      have hp' : (scAt0 (F := Ideal) V c (t.val - 1) (Nat.lt_of_le_of_lt (Nat.sub_le _ _) t.isLt)).2 (ix2 r (0 : Fin 1))
          = (Finset.univ.filter fun k : Fin 16384 => k.val < 2048 * (t.val % 8)).fold max (⊥ : EReal)
              (fun k => (V c main_arg0 (ix2 R k) : EReal)) := by
        rw [← hc]; exact hp
      rw [hp', fold_max_cols_succ _ (t.val % 8) (by omega)]

/-- Row `r` of the running minimum after point `t`: the minimum of the array's row `R = 512 (t / 8) + r` over the
    columns of the column blocks up to this one. -/
theorem acc_min (c : Dev nD) (t : Fin cfg0.N) (r : Fin 512) (R : Fin 4096) (hR : R.val = 512 * (t.val / 8) + r.val) :
    (scAt0 (F := Ideal) V c t.val t.isLt).1 (ix2 r (0 : Fin 1))
      = (Finset.univ.filter fun k : Fin 16384 => k.val < 2048 * (t.val % 8 + 1)).fold min (⊤ : EReal)
          (fun k => (V c main_arg0 (ix2 R k) : EReal)) :=
  acc_min_aux V c t.val t rfl r R hR

/-- Row `r` of the running maximum after point `t`, likewise. -/
theorem acc_max (c : Dev nD) (t : Fin cfg0.N) (r : Fin 512) (R : Fin 4096) (hR : R.val = 512 * (t.val / 8) + r.val) :
    (scAt0 (F := Ideal) V c t.val t.isLt).2 (ix2 r (0 : Fin 1))
      = (Finset.univ.filter fun k : Fin 16384 => k.val < 2048 * (t.val % 8 + 1)).fold max (⊥ : EReal)
          (fun k => (V c main_arg0 (ix2 R k) : EReal)) :=
  acc_max_aux V c t.val t rfl r R hR

end Cert.KernelIdeal.Val

end
-- ==== Proof.Val.Val0.lean ====
/-
  The first region's two result columns: after the region, row `r` of the first holds the minimum of row `r` of the
  input array and row `r` of the second its maximum. The region takes them as running minima (maxima) over the row's
  eight column blocks, started from +inf (-inf); over the extended reals that is the minimum (maximum) of the whole
  row, which is what the reference's reduce computes.
-/
import proofs.«153488_j16260746183110_1_alg».proof.Proof.KernelIdeal.Reg0
import proofs.«153488_j16260746183110_1_alg».proof.Proof.Val.Acc
import proofs.«153488_j16260746183110_1_alg».proof.Proof.Gen.ReferenceIdeal.Read
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

/-! ## The reference's two columns at a row -/

/-- The pattern of +inf is the top of the extended reals, -/
private theorem posInf_eq : (FloatOps.ofBits (F := Ideal) .f32 0x7F800000#32 : EReal) = ⊤ := by
  simp [Ideal.ofBits, Ideal.ieee]

/-- and the pattern of -inf the bottom. -/
private theorem negInf_eq : (FloatOps.ofBits (F := Ideal) .f32 0xFF800000#32 : EReal) = ⊥ := by
  simp [Ideal.ofBits, Ideal.ieee]

/-- The array index over row `j` with column `k` put back on the reduced axis. -/
private theorem lift_row_ref (h : (⟨2, ![4096, 16384]⟩ : Shape).Reduces [1] (⟨1, ![4096]⟩ : Shape)) (j : (⟨1, ![4096]⟩ : Shape).Idx)
    (k : Fin ((⟨2, ![4096, 16384]⟩ : Shape).size 1)) :
    h.lift j k = ix2 (⟨(j 0).val, (j 0).isLt⟩ : Fin 4096) (⟨k.val, k.isLt⟩ : Fin 16384) := by
  funext c; apply Fin.ext
  fin_cases c <;> rfl

/-- Row `R` of the reference's first column is the minimum of the array's row `R`. -/
private theorem ref_min_apply (x : FVec Ideal (⟨2, ![4096, 16384]⟩ : Shape) .f32) (i : (⟨2, ![4096, 1]⟩ : Shape).Idx) (R : Fin 4096)
    (hR : (i 0).val = R.val) :
    Cert.ReferenceIdeal.Read.val_main_v1 (F := Ideal) x i
      = Finset.univ.fold min (⊤ : EReal) (fun k : Fin 16384 => (x (ix2 R k) : EReal)) := by
  rw [Cert.ReferenceIdeal.Read.val_main_v1_apply]
  unfold Cert.ReferenceIdeal.Read.val_main_v0
  have h : (⟨2, ![4096, 16384]⟩ : Shape).Reduces [1] (⟨1, ![4096]⟩ : Shape) := by decide
  rw [Host.reduce_eq_fold_single FloatOps.minimumf x _ _ h]
  have e : (⟨((Cert.ReferenceIdeal.Read.idx_main_v1 i) 0).val, ((Cert.ReferenceIdeal.Read.idx_main_v1 i) 0).isLt⟩ : Fin 4096) = R :=
    Fin.ext hR
  have hf : (x ∘ h.lift (Cert.ReferenceIdeal.Read.idx_main_v1 i)) = fun k : Fin 16384 => x (ix2 R k) := funext fun k => by
    show x (h.lift _ k) = _
    rw [lift_row_ref h, e]
    rfl
  rw [hf]
  exact congrArg (fun a => Finset.fold min a (fun k : Fin 16384 => (x (ix2 R k) : EReal)) Finset.univ) posInf_eq

/-- Row `R` of the reference's second column is the maximum of the array's row `R`. -/
private theorem ref_max_apply (x : FVec Ideal (⟨2, ![4096, 16384]⟩ : Shape) .f32) (i : (⟨2, ![4096, 1]⟩ : Shape).Idx) (R : Fin 4096)
    (hR : (i 0).val = R.val) :
    Cert.ReferenceIdeal.Read.val_main_v5 (F := Ideal) x i
      = Finset.univ.fold max (⊥ : EReal) (fun k : Fin 16384 => (x (ix2 R k) : EReal)) := by
  rw [Cert.ReferenceIdeal.Read.val_main_v5_apply]
  unfold Cert.ReferenceIdeal.Read.val_main_v4
  have h : (⟨2, ![4096, 16384]⟩ : Shape).Reduces [1] (⟨1, ![4096]⟩ : Shape) := by decide
  rw [Host.reduce_eq_fold_single FloatOps.maximumf x _ _ h]
  have e : (⟨((Cert.ReferenceIdeal.Read.idx_main_v5 i) 0).val, ((Cert.ReferenceIdeal.Read.idx_main_v5 i) 0).isLt⟩ : Fin 4096) = R :=
    Fin.ext hR
  have hf : (x ∘ h.lift (Cert.ReferenceIdeal.Read.idx_main_v5 i)) = fun k : Fin 16384 => x (ix2 R k) := funext fun k => by
    show x (h.lift _ k) = _
    rw [lift_row_ref h, e]
    rfl
  rw [hf]
  exact congrArg (fun a => Finset.fold max a (fun k : Fin 16384 => (x (ix2 R k) : EReal)) Finset.univ) negInf_eq

/-! ## The blocks the region writes back -/

variable (V : (c : Dev nD) → (b : Ref sig .tc) → Buf (Elt Ideal) ((c : Thread nD τ).loc b))

/-- The block of either column at a point sits at the point's row block. -/
private theorem index1 : ∀ t : Fin cfg0.N, (cfg0.win 1).index t 0 = t.val / 8 :=
  (by decide +kernel : ∀ t : Fin grid0.N, win0_1.index t 0 = t.val / 8)

private theorem index2 : ∀ t : Fin cfg0.N, (cfg0.win 2).index t 0 = t.val / 8 :=
  (by decide +kernel : ∀ t : Fin grid0.N, win0_2.index t 0 = t.val / 8)

/-- At a column block 7 the columns of the blocks so far are all the columns. -/
private theorem filter_all (t : Fin cfg0.N) (h7 : t.val % 8 = 7) :
    (Finset.univ.filter fun k : Fin 16384 => k.val < 2048 * (t.val % 8 + 1)) = Finset.univ :=
  Finset.filter_true_of_mem fun k _ => by have := k.isLt; omega

/-- What a point at a column block 7 writes back into the first column is the reference's column read through the
    point's block: row `r` of the accumulator is the minimum of the whole row `512 (t / 8) + r`, and the block's row `r`
    sits at that row of the column. -/
private theorem flushed_min (c : Dev nD) (t : Fin cfg0.N) (hf : (cfg0.win 1).flush t = true) :
    (dat0 (F := Ideal) V c).flushed 1 t
      = ((cfg0.win 1).blk t).view.read (Elt Ideal) (Cert.ReferenceIdeal.Read.val_main_v1 (F := Ideal) (V c main_arg0)) := by
  have h7 : t.val % 8 = 7 := (flush0_1 t).mp hf
  have ht : t.val < 64 := (N_0 ▸ t.isLt : t.val < 64)
  funext y
  rw [View.read_apply]
  show (dat0 (F := Ideal) V c).after 1 t ((cfg0.win 1).xinj (cfg0.grid.coords t) y) = _
  rw [after0_1]
  have hy : (y 0).val < 512 := (y 0).isLt
  have hx : (cfg0.win 1).xinj (cfg0.grid.coords t) y = ix2 (⟨(y 0).val, hy⟩ : Fin 512) (0 : Fin 1) := by
    funext a; apply Fin.ext
    match a with
    | ⟨0, _⟩ => rfl
    | ⟨1, _⟩ => show (y 1).val = 0; have h1 : (y 1).val < 1 := (y 1).isLt; omega
  have hRlt : 512 * (t.val / 8) + (y 0).val < 4096 := by omega
  rw [hx, acc_min V c t ⟨(y 0).val, hy⟩ ⟨512 * (t.val / 8) + (y 0).val, hRlt⟩ rfl, filter_all t h7]
  have he : ((((cfg0.win 1).blk t).view.emb y) 0).val = 512 * (t.val / 8) + (y 0).val := by
    have e := (cfg0.win 1).rect_emb_val t y 0
    rw [index1] at e
    have hs : (cfg0.win 1).size 0 = 512 := rfl
    rw [hs] at e
    show (((cfg0.win 1).rect t).emb y 0).val = _
    omega
  rw [cast_eq]
  exact (ref_min_apply (V c main_arg0) _ ⟨_, hRlt⟩ he).symm

/-- What a point at a column block 7 writes back into the second column is the reference's column read through the
    point's block: row `r` of the accumulator is the maximum of the whole row `512 (t / 8) + r`, and the block's row `r`
    sits at that row of the column. -/
private theorem flushed_max (c : Dev nD) (t : Fin cfg0.N) (hf : (cfg0.win 2).flush t = true) :
    (dat0 (F := Ideal) V c).flushed 2 t
      = ((cfg0.win 2).blk t).view.read (Elt Ideal) (Cert.ReferenceIdeal.Read.val_main_v5 (F := Ideal) (V c main_arg0)) := by
  have h7 : t.val % 8 = 7 := (flush0_2 t).mp hf
  have ht : t.val < 64 := (N_0 ▸ t.isLt : t.val < 64)
  funext y
  rw [View.read_apply]
  show (dat0 (F := Ideal) V c).after 2 t ((cfg0.win 2).xinj (cfg0.grid.coords t) y) = _
  rw [after0_2]
  have hy : (y 0).val < 512 := (y 0).isLt
  have hx : (cfg0.win 2).xinj (cfg0.grid.coords t) y = ix2 (⟨(y 0).val, hy⟩ : Fin 512) (0 : Fin 1) := by
    funext a; apply Fin.ext
    match a with
    | ⟨0, _⟩ => rfl
    | ⟨1, _⟩ => show (y 1).val = 0; have h1 : (y 1).val < 1 := (y 1).isLt; omega
  have hRlt : 512 * (t.val / 8) + (y 0).val < 4096 := by omega
  rw [hx, acc_max V c t ⟨(y 0).val, hy⟩ ⟨512 * (t.val / 8) + (y 0).val, hRlt⟩ rfl, filter_all t h7]
  have he : ((((cfg0.win 2).blk t).view.emb y) 0).val = 512 * (t.val / 8) + (y 0).val := by
    have e := (cfg0.win 2).rect_emb_val t y 0
    rw [index2] at e
    have hs : (cfg0.win 2).size 0 = 512 := rfl
    rw [hs] at e
    show (((cfg0.win 2).rect t).emb y 0).val = _
    omega
  rw [cast_eq]
  exact (ref_max_apply (V c main_arg0) _ ⟨_, hRlt⟩ he).symm

/-! ## From the blocks to the columns -/

private theorem index1_col : ∀ t : Fin cfg0.N, (cfg0.win 1).index t 1 = 0 :=
  (by decide +kernel : ∀ t : Fin grid0.N, win0_1.index t 1 = 0)

private theorem index2_col : ∀ t : Fin cfg0.N, (cfg0.win 2).index t 1 = 0 :=
  (by decide +kernel : ∀ t : Fin grid0.N, win0_2.index t 1 = 0)

/-- Row `R` of the first column is in the block written back at the last column block of `R`'s row block. -/
private theorem cover1 (c : Dev nD) (i : ((cfg0.win 1).arr.view.loc (c.tc : Thread nD τ)).2.ty.Idx) :
    ∃ t : Fin cfg0.N, (cfg0.win 1).flush t = true ∧ i ∈ ((cfg0.win 1).blk t).view.set := by
  have hi : (i 0).val < 4096 := (i 0).isLt
  have hi1 : (i 1).val < 1 := (i 1).isLt
  have hN : cfg0.N = 64 := N_0
  have hlt : 8 * ((i 0).val / 512) + 7 < cfg0.N := by rw [hN]; omega
  refine ⟨⟨8 * ((i 0).val / 512) + 7, hlt⟩, (flush0_1 _).mpr (by show (8 * ((i 0).val / 512) + 7) % 8 = 7; omega), ?_⟩
  have h0 := index1 ⟨8 * ((i 0).val / 512) + 7, hlt⟩
  have h1 := index1_col ⟨8 * ((i 0).val / 512) + 7, hlt⟩
  show i ∈ ((View.whole main_v0_0).slice ((cfg0.win 1).rect ⟨8 * ((i 0).val / 512) + 7, hlt⟩)).set
  rw [View.set_slice_whole, Rect.mem_set_unit]
  intro a
  match a with
  | ⟨0, _⟩ =>
    show (cfg0.win 1).index ⟨8 * ((i 0).val / 512) + 7, hlt⟩ 0 * 512 ≤ (i 0).val
      ∧ (i 0).val < (cfg0.win 1).index ⟨8 * ((i 0).val / 512) + 7, hlt⟩ 0 * 512 + 512
    rw [h0]
    show (8 * ((i 0).val / 512) + 7) / 8 * 512 ≤ (i 0).val ∧ (i 0).val < (8 * ((i 0).val / 512) + 7) / 8 * 512 + 512
    omega
  | ⟨1, _⟩ =>
    show (cfg0.win 1).index ⟨8 * ((i 0).val / 512) + 7, hlt⟩ 1 * 1 ≤ (i 1).val
      ∧ (i 1).val < (cfg0.win 1).index ⟨8 * ((i 0).val / 512) + 7, hlt⟩ 1 * 1 + 1
    rw [h1]
    omega

/-- The column of row minima the region leaves is the reference's. -/
theorem rowmin_eq (c : Dev nD) :
    (dat0 (F := Ideal) V c).arrAt 1 cfg0.N = Cert.ReferenceIdeal.Read.val_main_v1 (F := Ideal) (V c main_arg0) :=
  (dat0 (F := Ideal) V c).arrAt_eq_of_cover 1 _ (flushed_min V c) (cover1 c)

/-- Row `R` of the second column is in the block written back at the last column block of `R`'s row block. -/
private theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  have hi : (i 0).val < 4096 := (i 0).isLt
  have hi1 : (i 1).val < 1 := (i 1).isLt
  have hN : cfg0.N = 64 := N_0
  have hlt : 8 * ((i 0).val / 512) + 7 < cfg0.N := by rw [hN]; omega
  refine ⟨⟨8 * ((i 0).val / 512) + 7, hlt⟩, (flush0_2 _).mpr (by show (8 * ((i 0).val / 512) + 7) % 8 = 7; omega), ?_⟩
  have h0 := index2 ⟨8 * ((i 0).val / 512) + 7, hlt⟩
  have h1 := index2_col ⟨8 * ((i 0).val / 512) + 7, hlt⟩
  show i ∈ ((View.whole main_v0_1).slice ((cfg0.win 2).rect ⟨8 * ((i 0).val / 512) + 7, hlt⟩)).set
  rw [View.set_slice_whole, Rect.mem_set_unit]
  intro a
  match a with
  | ⟨0, _⟩ =>
    show (cfg0.win 2).index ⟨8 * ((i 0).val / 512) + 7, hlt⟩ 0 * 512 ≤ (i 0).val
      ∧ (i 0).val < (cfg0.win 2).index ⟨8 * ((i 0).val / 512) + 7, hlt⟩ 0 * 512 + 512
    rw [h0]
    show (8 * ((i 0).val / 512) + 7) / 8 * 512 ≤ (i 0).val ∧ (i 0).val < (8 * ((i 0).val / 512) + 7) / 8 * 512 + 512
    omega
  | ⟨1, _⟩ =>
    show (cfg0.win 2).index ⟨8 * ((i 0).val / 512) + 7, hlt⟩ 1 * 1 ≤ (i 1).val
      ∧ (i 1).val < (cfg0.win 2).index ⟨8 * ((i 0).val / 512) + 7, hlt⟩ 1 * 1 + 1
    rw [h1]
    omega

/-- The column of row maxima the region leaves is the reference's. -/
theorem rowmax_eq (c : Dev nD) :
    (dat0 (F := Ideal) V c).arrAt 2 cfg0.N = Cert.ReferenceIdeal.Read.val_main_v5 (F := Ideal) (V c main_arg0) :=
  (dat0 (F := Ideal) V c).arrAt_eq_of_cover 2 _ (flushed_max V c) (cover2 c)

end Cert.KernelIdeal.Val

end
-- ==== Proof.Val.Spec.lean ====
/-
  The mathematics both programs compute, over the extended reals. For a 4096 x 16384 array `x`: each row's minimum
  `mn` and maximum `mx` give the row's scale `s = max ((max mx 0 - min mn 0) / 255) eps` and zero point
  `z = round (-(min mn 0) / s)` (ties to even); entry `(r, k)` of the result is
  `(min 255 (max 0 (round (x r k / s r) + z r)) - z r) * s r`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The array's shape, a column of one value per row, and the shape of a scalar. -/
abbrev SX : Shape := ⟨2, ![4096, 16384]⟩
abbrev SC : Shape := ⟨2, ![4096, 1]⟩
abbrev S0 : Shape := ⟨0, ![]⟩

/-- The column entry of an array index's row. -/
def rowOf (i : SX.Idx) : SC.Idx := ix2 (i 0) (0 : Fin 1)

/-- Quantise, clamp to [0, 255], dequantise: entry by entry, with the row's scale `s` and zero point `z`. -/
def quantOf (x : FVec Ideal SX .f32) (s z : FVec Ideal SC .f32) : FVec Ideal SX .f32 := fun i =>
  FloatOps.mulf
    (FloatOps.subf
      (FloatOps.minimumf (FloatOps.ofBits .f32 0x437F0000#32)
        (FloatOps.maximumf (FloatOps.ofBits .f32 0x00000000#32)
          (FloatOps.addf (FloatOps.roundeven (FloatOps.divf (x i) (s (rowOf i)))) (z (rowOf i)))))
      (z (rowOf i)))
    (s (rowOf i))

theorem bc : S0.BroadcastsInDim SC (![] : Fin 0 → Fin SC.rank) := by decide

/-- A scalar literal spread over the column. -/
def lit (w : BitVec 32) : FVec Ideal SC .f32 := broadcastInDim SC ![] bc (constant (F := Ideal) S0 .f32 w)

/-- The rows' lower ends `min mn 0`. -/
def loOf (mn : FVec Ideal SC .f32) : FVec Ideal SC .f32 := minimumf mn (lit 0x00000000#32)

/-- The rows' scales from their minima and maxima. -/
def scaleChain (mn mx : FVec Ideal SC .f32) : FVec Ideal SC .f32 :=
  maximumf (Host.divf (subf (maximumf mx (lit 0x00000000#32)) (loOf mn)) (lit 0x437F0000#32)) (lit 0x322BCC77#32)

/-- The rows' zero points. -/
def zeroChain (mn mx : FVec Ideal SC .f32) : FVec Ideal SC .f32 :=
  Host.roundeven (Host.divf (Host.negf (loOf mn)) (scaleChain mn mx))

end Cert.Spec

end
-- ==== Proof.Val.Val1.lean ====
/-
  The second region's result array, as one function of the arrays the region is entered with: every block the
  region writes back is the restriction of `quantOf` to that block's rows and columns, and the 64 blocks tile the array.
-/
import proofs.«153488_j16260746183110_1_alg».proof.Proof.KernelIdeal.Reg1
import proofs.«153488_j16260746183110_1_alg».proof.Proof.Val.Spec
import Idealize.ShloMosaic.Lib.Pipeline.Value
import Idealize.ShloMosaic.Lib.ValueLayout

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## One entry of the body's result -/

/-- A column of 512 rows spread over 2048 columns, read at an entry: the column's entry of that row. -/
private theorem bcast_apply (x : Vec Ideal S512x1 .f32) (p : Fin 512) (q : Fin 2048) :
    broadcastTo S512x2048 (shapeCast S512x1 x shapeCasts_S512x1_S512x1) broadcasts_S512x1_S512x2048 (ix2 p q) = x (ix2 p 0) := by
  rw [shapeCast_self]
  refine broadcastTo_apply _ _ _ _ fun a => ?_
  match a with
  | ⟨0, _⟩ => exact (if_neg (show ¬ (512 : Nat) = 1 by omega)).symm
  | ⟨1, _⟩ => exact (if_pos (show (1 : Nat) = 1 from rfl)).symm

/-- One entry of the result from the entry `x` of the input, the row's scale `s` and the row's zero point `z`:
    `(min 255 (max 0 (round (x / s) + z)) - z) * s`. -/
private def qentry (x s z : Ideal .f32) : Ideal .f32 :=
  FloatOps.mulf
    (FloatOps.subf
      (FloatOps.minimumf (FloatOps.ofBits .f32 0x437F0000#32)
        (FloatOps.maximumf (FloatOps.ofBits .f32 0x00000000#32)
          (FloatOps.addf (FloatOps.roundeven (FloatOps.divf x s)) z)))
      z)
    s

/-- The body's result block at row `p`, column `q` of the block: `qentry` of the input block's entry there and of
    the scale and zero-point blocks' entries of row `p`. -/
private theorem pay_apply (x0 : Vec Ideal S512x2048 .f32) (x1 x2 : Vec Ideal S512x1 .f32) (p : Fin 512) (q : Fin 2048) :
    k1_pay1 x1 x2 x0 (ix2 p q) = qentry (x0 (ix2 p q)) (x1 (ix2 p 0)) (x2 (ix2 p 0)) := by
  unfold k1_pay1
  show qentry (x0 (ix2 p q))
      (broadcastTo S512x2048 (shapeCast S512x1 x1 shapeCasts_S512x1_S512x1) broadcasts_S512x1_S512x2048 (ix2 p q))
      (broadcastTo S512x2048 (shapeCast S512x1 x2 shapeCasts_S512x1_S512x1) broadcasts_S512x1_S512x2048 (ix2 p q)) = _
  rw [bcast_apply, bcast_apply]

/-- The whole-array map at an entry is `qentry` of the array's entry and of the row's scale and zero point. -/
private theorem quantOf_apply (x : FVec Ideal Cert.Spec.SX .f32) (s z : FVec Ideal Cert.Spec.SC .f32) (i : Cert.Spec.SX.Idx) :
    Cert.Spec.quantOf x s z i = qentry (x i) (s (Cert.Spec.rowOf i)) (z (Cert.Spec.rowOf i)) := rfl

/-! ## The index maps, decided over the 64 grid points -/

/-- At point `t` the input's and the result's blocks are block `(t / 8, t % 8)`; the scale's and the zero point's are
    block `(t / 8, 0)`. -/
private theorem idx_facts : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = t.val % 8 :=
  (by decide +kernel : ∀ t : Fin grid1.N, _)

/-! ## The input blocks, as entries of their arrays -/

/-- The input's block at point `t`, at row `p` and column `q` of the block, is the array's entry at row
    `512 (t / 8) + p`, column `2048 (t % 8) + q`. -/
private theorem iblk0_apply (c : Dev nD) (t : Fin cfg1.N) (p : Fin 512) (q : Fin 2048) (k : S4096x16384.Idx)
    (hk0 : (k 0).val = 512 * (t.val / 8) + p.val) (hk1 : (k 1).val = 2048 * (t.val % 8) + q.val) :
    (iblk1 V c 0 t : Vec Ideal S512x2048 .f32) (ix2 p q) = (V c main_arg0 : S4096x16384.Idx → Elt Ideal .f32) k := by
  obtain ⟨e0, e1, -⟩ := idx_facts t
  unfold iblk1
  rw [View.read_apply]
  show V c main_arg0 _ = V c main_arg0 _
  congr 1
  funext a
  apply Fin.ext
  match a with
  | ⟨0, _⟩ => show win1_0.index t (0 : Fin 2) * 512 + 1 * p.val = (k 0).val; rw [e0, hk0]; omega
  | ⟨1, _⟩ => show win1_0.index t (1 : Fin 2) * 2048 + 1 * q.val = (k 1).val; rw [e1, hk1]; omega

/-- The scale's block at point `t`, at row `p`, is the scale column's entry of row `512 (t / 8) + p`. -/
private theorem iblk1_apply (c : Dev nD) (t : Fin cfg1.N) (p : Fin 512) (k : S4096x1.Idx)
    (hk0 : (k 0).val = 512 * (t.val / 8) + p.val) :
    (iblk1 V c 1 t : Vec Ideal S512x1 .f32) (ix2 p 0) = (V c main_v9 : S4096x1.Idx → Elt Ideal .f32) k := by
  obtain ⟨-, -, e0, e1, -⟩ := idx_facts t
  unfold iblk1
  rw [View.read_apply]
  show V c main_v9 _ = V c main_v9 _
  congr 1
  funext a
  apply Fin.ext
  match a with
  | ⟨0, _⟩ => show win1_1.index t (0 : Fin 2) * 512 + 1 * p.val = (k 0).val; rw [e0, hk0]; omega
  | ⟨1, _⟩ => show win1_1.index t (1 : Fin 2) * 1 + 1 * 0 = (k 1).val; rw [e1]; have hk1 : (k 1).val < 1 := (k 1).isLt; omega

/-- The zero point's block at point `t`, at row `p`, is the zero-point column's entry of row `512 (t / 8) + p`. -/
private theorem iblk2_apply (c : Dev nD) (t : Fin cfg1.N) (p : Fin 512) (k : S4096x1.Idx)
    (hk0 : (k 0).val = 512 * (t.val / 8) + p.val) :
    (iblk1 V c 2 t : Vec Ideal S512x1 .f32) (ix2 p 0) = (V c main_v12 : S4096x1.Idx → Elt Ideal .f32) k := by
  obtain ⟨-, -, -, -, e0, e1, -⟩ := idx_facts t
  unfold iblk1
  rw [View.read_apply]
  show V c main_v12 _ = V c main_v12 _
  congr 1
  funext a
  apply Fin.ext
  match a with
  | ⟨0, _⟩ => show win1_2.index t (0 : Fin 2) * 512 + 1 * p.val = (k 0).val; rw [e0, hk0]; omega
  | ⟨1, _⟩ => show win1_2.index t (1 : Fin 2) * 1 + 1 * 0 = (k 1).val; rw [e1]; have hk1 : (k 1).val < 1 := (k 1).isLt; omega

/-! ## What a point writes back -/

/-- The body's result at point `t`, at row `p` and column `q` of its block, is the whole-array map at the entry of row
    `512 (t / 8) + p`, column `2048 (t % 8) + q`. -/
private theorem entry_eq (c : Dev nD) (t : Fin cfg1.N) (p : Fin 512) (q : Fin 2048) (k : S4096x16384.Idx)
    (hk0 : (k 0).val = 512 * (t.val / 8) + p.val) (hk1 : (k 1).val = 2048 * (t.val % 8) + q.val) :
    k1_pay1 (iblk1 V c 1 t) (iblk1 V c 2 t) (iblk1 V c 0 t) (ix2 p q)
      = Cert.Spec.quantOf (V c main_arg0) (V c main_v9) (V c main_v12) k := by
  refine (pay_apply (iblk1 V c 0 t) (iblk1 V c 1 t) (iblk1 V c 2 t) p q).trans ?_
  rw [quantOf_apply, iblk0_apply V c t p q k hk0 hk1, iblk1_apply V c t p (Cert.Spec.rowOf k) hk0,
    iblk2_apply V c t p (Cert.Spec.rowOf k) hk0]

/-- What point `t` writes back is block `t` of the quantise / clamp / dequantise map of the three arrays. -/
private theorem flushed_eq (c : Dev nD) (t : Fin cfg1.N) :
    (dat1 (F := Ideal) V c).flushed 3 t
      = ((cfg1.win 3).blk t).view.read (Elt Ideal) (Cert.Spec.quantOf (V c main_arg0) (V c main_v9) (V c main_v12)) := by
  show (cfg1.win 3).cut (grid1.coords t) ((dat1 V c).after 3 t) = _
  rw [after1_3]
  unfold out1_3
  funext j
  obtain ⟨p, q, rfl⟩ : ∃ (p : Fin 512) (q : Fin 2048), j = ix2 p q := ⟨j 0, j 1, eq_ix2 j⟩
  obtain ⟨-, -, -, -, -, -, e0, e1⟩ := idx_facts t
  exact entry_eq V c t p q (((cfg1.win 3).blk t).view.emb (ix2 p q))
    (by show win1_3.index t (0 : Fin 2) * 512 + 1 * p.val = _; rw [e0]; omega)
    (by show win1_3.index t (1 : Fin 2) * 2048 + 1 * q.val = _; rw [e1]; omega)

/-! ## The 64 blocks tile the array -/

/-- An entry of the array is in point `t`'s block iff each coordinate is in the block's range on its axis. -/
private theorem mem_blk (t : Fin cfg1.N) (i : S4096x16384.Idx) :
    i ∈ ((cfg1.win 3).blk t).view.set ↔ ∀ a : Fin 2, win1_3.index t a * S512x2048.size a ≤ (i a).val
      ∧ (i a).val < win1_3.index t a * S512x2048.size a + S512x2048.size a := by
  show i ∈ ((View.whole main_v13).slice (win1_3.rect t)).set ↔ _
  rw [View.set_slice_whole, Rect.mem_set_unit]
  exact Iff.rfl

/-- The entry at row `R`, column `K` is in the block of point `8 (R / 512) + K / 2048`, which writes its block back. -/
private theorem cover (i : S4096x16384.Idx) :
    ∃ t : Fin cfg1.N, (cfg1.win 3).flush t = true ∧ i ∈ ((cfg1.win 3).blk t).view.set := by
  have h0 : (i 0).val < 4096 := (i 0).isLt
  have h1 : (i 1).val < 16384 := (i 1).isLt
  have hN : cfg1.N = 64 := N_1
  obtain ⟨t, ht⟩ : ∃ t : Fin cfg1.N, t.val = 8 * ((i 0).val / 512) + (i 1).val / 2048 :=
    ⟨⟨8 * ((i 0).val / 512) + (i 1).val / 2048, by rw [hN]; omega⟩, rfl⟩
  obtain ⟨-, -, -, -, -, -, e0, e1⟩ := idx_facts t
  refine ⟨t, flush1_3 t, ?_⟩
  rw [mem_blk]
  intro a
  match a with
  | ⟨0, _⟩ =>
    show win1_3.index t (0 : Fin 2) * 512 ≤ (i 0).val ∧ (i 0).val < win1_3.index t (0 : Fin 2) * 512 + 512
    rw [e0, ht]; omega
  | ⟨1, _⟩ =>
    show win1_3.index t (1 : Fin 2) * 2048 ≤ (i 1).val ∧ (i 1).val < win1_3.index t (1 : Fin 2) * 2048 + 2048
    rw [e1, ht]; omega

/-! ## The array after the region -/

/-- After the region, the result array holds the quantise / clamp / dequantise map of the input array with the
    scale and zero-point columns the region was entered with. -/
theorem out_eq (c : Dev nD) :
    (dat1 (F := Ideal) V c).arrAt 3 cfg1.N = Cert.Spec.quantOf (V c main_arg0) (V c main_v9) (V c main_v12) :=
  (dat1 (F := Ideal) V c).arrAt_eq_of_cover 3 (Cert.Spec.quantOf (V c main_arg0) (V c main_v9) (V c main_v12))
    (fun t _ => flushed_eq V c t) cover

end Cert.KernelIdeal.Val

end
-- ==== Proof.Val.HostChain.lean ====
/-
  What the second region is entered with: the argument array as launched, and the scale and zero-point columns
  the host operations between the regions compute from the first region's two result columns.
-/
import proofs.«153488_j16260746183110_1_alg».proof.Proof.KernelIdeal.Run
import proofs.«153488_j16260746183110_1_alg».proof.Proof.Val.Spec
import proofs.«153488_j16260746183110_1_alg».proof.Proof.Gen.KernelIdeal.Regions
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- Neither region's entry contents change the argument. -/
theorem U0_arg0 (c : Dev nD) : U0 m c main_arg0 = m ((c : Thread nD τ).loc main_arg0) := rfl
theorem U3_arg0 (c : Dev nD) : U3 m c main_arg0 = m ((c : Thread nD τ).loc main_arg0) := by
  show StableHlo.after hostOps1_1 (StableHlo.after hostOps1 (B1 m c)) (Proc.devRef .tc main_arg0) = _
  -- no host operation writes the argument; the first region only reads it, so its array is never written back
  rw [StableHlo.after_of_writes_sub hostOps1_1 _ hostOps1_1_writes (by decide),
    StableHlo.after_of_writes_sub hostOps1 _ hostOps1_writes (by decide)]
  exact (B1_arr m c 0).trans ((Pipeline.Dat.arrAt_in (dat := dat0 (U0 m) c) 0 rfl cfg0.N).trans (A_eq0 (U0 m) c 0))

/-- The first region's two result columns at its exit are what its write-backs leave. -/
theorem U1_v0_0 (c : Dev nD) : U1 m c main_v0_0 = (dat0 (U0 m) c).arrAt 1 cfg0.N := B1_arr m c 1
theorem U1_v0_1 (c : Dev nD) : U1 m c main_v0_1 = (dat0 (U0 m) c).arrAt 2 cfg0.N := B1_arr m c 2

/-- The scale column the second region reads. -/
theorem U3_v9 (c : Dev nD) : U3 m c main_v9 = Cert.Spec.scaleChain (U1 m c main_v0_0) (U1 m c main_v0_1) := by
  show StableHlo.after hostOps1_1 (StableHlo.after hostOps1 (B1 m c)) (Proc.devRef .tc main_v9)
    = Cert.Spec.scaleChain (B1 m c (Proc.devRef .tc main_v0_0)) (B1 m c (Proc.devRef .tc main_v0_1))
  generalize B1 m c = V
  simp only [hostOps1, hostOps1_1]
  after_results
  generalize V (Proc.devRef .tc main_v0_0) = mn
  generalize V (Proc.devRef .tc main_v0_1) = mx
  unfold Cert.Spec.scaleChain Cert.Spec.loOf Cert.Spec.lit
  rfl

/-- The zero-point column the second region reads. -/
theorem U3_v12 (c : Dev nD) : U3 m c main_v12 = Cert.Spec.zeroChain (U1 m c main_v0_0) (U1 m c main_v0_1) := by
  show StableHlo.after hostOps1_1 (StableHlo.after hostOps1 (B1 m c)) (Proc.devRef .tc main_v12)
    = Cert.Spec.zeroChain (B1 m c (Proc.devRef .tc main_v0_0)) (B1 m c (Proc.devRef .tc main_v0_1))
  generalize B1 m c = V
  simp only [hostOps1, hostOps1_1]
  after_results
  generalize V (Proc.devRef .tc main_v0_0) = mn
  generalize V (Proc.devRef .tc main_v0_1) = mx
  unfold Cert.Spec.zeroChain Cert.Spec.scaleChain Cert.Spec.loOf Cert.Spec.lit
  rfl

end Cert.KernelIdeal.Val

end
-- ==== Proof.Val.RefSide.lean ====
/-
  The reference read at an index: each row's scale and zero point from the row's minimum and maximum, then the
  quantise / clamp / dequantise map applied entry by entry.
-/
import proofs.«153488_j16260746183110_1_alg».proof.Proof.Gen.ReferenceIdeal.Run
import proofs.«153488_j16260746183110_1_alg».proof.Proof.Gen.ReferenceIdeal.Read
import proofs.«153488_j16260746183110_1_alg».proof.Proof.Val.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The reference's scale column is the scale chain of its row minima and maxima. -/
theorem ref_scale (x : (⟨S4096x16384, .f32⟩ : BufTy).Contents (Elt Ideal)) :
    val_main_v12 (F := Ideal) x = Cert.Spec.scaleChain (val_main_v1 (F := Ideal) x) (val_main_v5 (F := Ideal) x) := by
  unfold val_main_v12 val_main_v10 val_main_v8 val_main_v7 val_main_v3 val_main_v2 val_main_v6 val_main_v9
    val_main_v11 val_main_cst_0 val_main_cst_2 val_main_cst_3 val_main_cst_4
  unfold Cert.Spec.scaleChain Cert.Spec.loOf Cert.Spec.lit
  generalize val_main_v1 (F := Ideal) x = mn
  generalize val_main_v5 (F := Ideal) x = mx
  rfl

/-- Its zero-point column likewise. -/
theorem ref_zero (x : (⟨S4096x16384, .f32⟩ : BufTy).Contents (Elt Ideal)) :
    val_main_v15 (F := Ideal) x = Cert.Spec.zeroChain (val_main_v1 (F := Ideal) x) (val_main_v5 (F := Ideal) x) := by
  unfold val_main_v15 val_main_v14 val_main_v13
  rw [ref_scale]
  unfold val_main_v3 val_main_v2 val_main_cst_0
  unfold Cert.Spec.zeroChain Cert.Spec.loOf Cert.Spec.lit
  generalize val_main_v1 (F := Ideal) x = mn
  generalize val_main_v5 (F := Ideal) x = mx
  rfl

/-- Its result is the quantise / clamp / dequantise map of the argument with those two columns. -/
theorem ref_eq (x : (⟨S4096x16384, .f32⟩ : BufTy).Contents (Elt Ideal)) :
    val_main_v25 (F := Ideal) x = Cert.Spec.quantOf x (val_main_v12 (F := Ideal) x) (val_main_v15 (F := Ideal) x) := by
  funext i
  -- every spread of a column over the array reads, at an index, the column entry of the index's row
  have hrow : idx_main_v16 i = Cert.Spec.rowOf i :=
    funext fun a => Fin.ext (by match a with | ⟨0, _⟩ => rfl | ⟨1, _⟩ => rfl)
  rw [val_main_v25_apply, val_main_v23_apply, val_main_v21_apply, val_main_call2_v4_apply, val_main_call2_v3_apply,
    val_main_cst_6_apply, val_main_call2_v2_apply, val_main_call2_v1_apply, val_main_call2_v0_apply,
    val_main_cst_5_apply, val_main_v20_apply, val_main_v18_apply, val_main_v17_apply, val_main_v16_apply,
    val_main_v19_apply, val_main_v22_apply, val_main_v24_apply]
  rw [show idx_main_v19 i = Cert.Spec.rowOf i from hrow, show idx_main_v22 i = Cert.Spec.rowOf i from hrow,
    show idx_main_v24 i = Cert.Spec.rowOf i from hrow, hrow]
  generalize val_main_v12 (F := Ideal) x = s
  generalize val_main_v15 (F := Ideal) x = z
  unfold Cert.Spec.quantOf
  rfl

end Cert.ReferenceIdeal.RefValue

end
-- ==== Proof.Val.Bridge.lean ====
/-
  The kernel's result array, at the ideal values, is the reference's function of the argument. Read backwards from the
  end: the result array is what the second region's write-backs leave, the quantise / clamp / dequantise map of the
  argument with the scale and zero-point columns; those are the host chains of the first region's two result columns;
  those are the row minima and maxima of the argument; and the reference computes the same three stages.
-/
import proofs.«153488_j16260746183110_1_alg».proof.Proof.KernelIdeal.Run
import proofs.«153488_j16260746183110_1_alg».proof.Proof.Val.Val0
import proofs.«153488_j16260746183110_1_alg».proof.Proof.Val.Val1
import proofs.«153488_j16260746183110_1_alg».proof.Proof.Val.HostChain
import proofs.«153488_j16260746183110_1_alg».proof.Proof.Val.RefSide

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

theorem kernel_value (c : Dev nD) :
    B4 (F := Ideal) m c (Proc.devRef .tc main_v13)
      = Cert.ReferenceIdeal.Read.val_main_v25 (F := Ideal) (m ((c : Thread nD τ).loc main_arg0)) := by
  rw [B4_main_v13, out_eq (U3 m) c, U3_arg0, U3_v9, U3_v12, U1_v0_0, U1_v0_1, rowmin_eq (U0 m) c, rowmax_eq (U0 m) c, U0_arg0,
    Cert.ReferenceIdeal.RefValue.ref_eq, Cert.ReferenceIdeal.RefValue.ref_scale, Cert.ReferenceIdeal.RefValue.ref_zero]

end Cert.KernelIdeal.Val

end
-- ==== Proof.lean ====
/-
  The certificate of a per-row min/max fake-quantiser over x[4096, 16384] against its jnp reference.
  The kernel takes each row's minimum and maximum in a first region, eight column blocks at a time into two running
  accumulators started from +inf and -inf; over the extended reals the running minimum (maximum) of the blocks' minima
  (maxima) is the row's, which is what the reference's reduce computes (min and max are associative, commutative and
  idempotent with +inf and -inf their units: no finiteness is needed). Both programs then apply the same operations to
  the two columns to get each row's scale and zero point, and the same map entry by entry, the kernel block by block
  in a second region. The three frames are the programs' runs with the results dropped; the kernel's idealisation
  rewrote nothing, so there is nothing to preserve.
-/
import proofs.«153488_j16260746183110_1_alg».proof.Defs
import proofs.«153488_j16260746183110_1_alg».proof.Proof.Gen.Kernel
import proofs.«153488_j16260746183110_1_alg».proof.Proof.Gen.KernelIdeal
import proofs.«153488_j16260746183110_1_alg».proof.Proof.Gen.ReferenceIdeal
import proofs.«153488_j16260746183110_1_alg».proof.Proof.Gen.Pre_finite_inputs
import proofs.«153488_j16260746183110_1_alg».proof.Proof.Gen.ReferenceIdeal.Run
import proofs.«153488_j16260746183110_1_alg».proof.Proof.Gen.ReferenceIdeal.Read
import proofs.«153488_j16260746183110_1_alg».proof.Proof.Kernel.Run
import proofs.«153488_j16260746183110_1_alg».proof.Proof.KernelIdeal.Run
import proofs.«153488_j16260746183110_1_alg».proof.Proof.Val.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the reference's function of the argument. -/
theorem algebraic : Cert.algebraic_KernelIdeal_ReferenceIdeal := by
  intro m ρ m' ρ' _ hagree
  refine ⟨fun c => Cert.ReferenceIdeal.Read.val_main_v25 (F := Ideal)
    (m ((c.tc : Thread Cert.KernelIdeal.nD Cert.KernelIdeal.τ).loc Cert.KernelIdeal.main_arg0)), ?_, ?_⟩
  · refine (θ_run Cert.KernelIdeal.defs _ _).mono (fun r h c => ⟨?_, ?_⟩) (Cert.KernelIdeal.Hand.run_main (F := Ideal) m ρ)
    · exact (h c _ (Cert.KernelIdeal.Hand.mem_uc Cert.KernelIdeal.main_v13 (by decide))).trans (Cert.KernelIdeal.Val.kernel_value m c)
    · exact (h c _ (Cert.KernelIdeal.Hand.mem_uc Cert.KernelIdeal.main_arg0 (by decide))).trans (Cert.KernelIdeal.Hand.B4_main_arg0 m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
